-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v53)) (v1 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_v54) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_v68) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x64 : Shape := ⟨2, ![500000, 64]⟩
abbrev S300000x64 : Shape := ⟨2, ![300000, 64]⟩
abbrev S1250000 : Shape := ⟨1, ![1250000]⟩
abbrev S_ : Shape := ⟨0, ![]⟩

class Facts : Prop where
  bcast_S_S500000x64 : S_.BroadcastsInDim S500000x64 (![] : Fin 0 → Fin S500000x64.rank)
  reducesTo_S500000x64_S_d0_1 : S500000x64.ReducesTo [0, 1] S_
  h_S_ : 0 < S_.numel
  bcast_S_S300000x64 : S_.BroadcastsInDim S300000x64 (![] : Fin 0 → Fin S300000x64.rank)
  reducesTo_S300000x64_S_d0_1 : S300000x64.ReducesTo [0, 1] S_

variable [Facts]

def fn {F : FTy → Type} [FloatOps F] (main_arg0 : FVec F S500000x64 .f32) (main_arg1 : FVec F S300000x64 .f32) (main_arg2 : IVec S1250000 32) (main_arg3 : IVec S1250000 32) : IVec S_ 1 :=
  let main_v0 : FVec F S500000x64 .f32 := Host.absf main_arg0
  let main_cst : FVec F S_ .f32 := constant S_ .f32 0x7F800000#32
  let main_v1 : FVec F S500000x64 .f32 := broadcastInDim S500000x64 ![] bcast_S_S500000x64 main_cst
  let main_v2 : IVec S500000x64 1 := cmpf .olt main_v0 main_v1
  let main_c : IVec S_ 1 := constantI S_ 1 1#1
  let main_v3 : IVec S_ 1 := (fun x v => Host.reduce IntOp.andi x v reducesTo_S500000x64_S_d0_1 h_S_) main_v2 main_c
  let main_v4 : FVec F S300000x64 .f32 := Host.absf main_arg1
  let main_cst_0 : FVec F S_ .f32 := constant S_ .f32 0x7F800000#32
  let main_v5 : FVec F S300000x64 .f32 := broadcastInDim S300000x64 ![] bcast_S_S300000x64 main_cst_0
  let main_v6 : IVec S300000x64 1 := cmpf .olt main_v4 main_v5
  let main_c_1 : IVec S_ 1 := constantI S_ 1 1#1
  let main_v7 : IVec S_ 1 := (fun x v => Host.reduce IntOp.andi x v reducesTo_S300000x64_S_d0_1 h_S_) main_v6 main_c_1
  let main_v8 : IVec S_ 1 := andi main_v3 main_v7
  main_v8
-- ==== Kernel.lean ====
abbrev S500000x64 : Shape := ⟨2, ![500000, 64]⟩
abbrev S300000x64 : Shape := ⟨2, ![300000, 64]⟩
abbrev S1250000 : Shape := ⟨1, ![1250000]⟩
abbrev S_ : Shape := ⟨0, ![]⟩
abbrev S800000 : Shape := ⟨1, ![800000]⟩
abbrev S1250000x1 : Shape := ⟨2, ![1250000, 1]⟩
abbrev S800000x1 : Shape := ⟨2, ![800000, 1]⟩
abbrev S800000x64 : Shape := ⟨2, ![800000, 64]⟩
abbrev S40000x64 : Shape := ⟨2, ![40000, 64]⟩
abbrev S40000x1 : Shape := ⟨2, ![40000, 1]⟩
abbrev S1250000x64 : Shape := ⟨2, ![1250000, 64]⟩
abbrev S16000x64 : Shape := ⟨2, ![16000, 64]⟩
abbrev S16000x1 : Shape := ⟨2, ![16000, 1]⟩

abbrev nBuf : Space → Nat
  | .hbm => 82
  | .vmem => 52
  | .smem => 0
  | _ => 0

abbrev bufTy : (tb : Table) → Fin (tcTables nBuf tb) → BufTy
  | .hbm, ⟨0, _⟩ => ⟨S500000x64, .f32⟩
  | .hbm, ⟨1, _⟩ => ⟨S300000x64, .f32⟩
  | .hbm, ⟨2, _⟩ => ⟨S1250000, .i32⟩
  | .hbm, ⟨3, _⟩ => ⟨S1250000, .i32⟩
  | .hbm, ⟨4, _⟩ => ⟨S_, .f32⟩
  | .hbm, ⟨5, _⟩ => ⟨S1250000, .f32⟩
  | .hbm, ⟨6, _⟩ => ⟨S_, .f32⟩
  | .hbm, ⟨7, _⟩ => ⟨S800000, .f32⟩
  | .hbm, ⟨8, _⟩ => ⟨S1250000x1, .i32⟩
  | .hbm, ⟨9, _⟩ => ⟨S800000, .f32⟩
  | .hbm, ⟨10, _⟩ => ⟨S_, .f32⟩
  | .hbm, ⟨11, _⟩ => ⟨S_, .f32⟩
  | .hbm, ⟨12, _⟩ => ⟨S800000, .f32⟩
  | .hbm, ⟨13, _⟩ => ⟨S800000, .f32⟩
  | .hbm, ⟨14, _⟩ => ⟨S_, .f32⟩
  | .hbm, ⟨15, _⟩ => ⟨S800000, .f32⟩
  | .hbm, ⟨16, _⟩ => ⟨S1250000x1, .i32⟩
  | .hbm, ⟨17, _⟩ => ⟨S800000, .f32⟩
  | .hbm, ⟨18, _⟩ => ⟨S_, .f32⟩
  | .hbm, ⟨19, _⟩ => ⟨S_, .f32⟩
  | .hbm, ⟨20, _⟩ => ⟨S800000, .f32⟩
  | .hbm, ⟨21, _⟩ => ⟨S800000, .f32⟩
  | .hbm, ⟨22, _⟩ => ⟨S_, .f32⟩
  | .hbm, ⟨23, _⟩ => ⟨S800000, .f32⟩
  | .hbm, ⟨24, _⟩ => ⟨S800000, .f32⟩
  | .hbm, ⟨25, _⟩ => ⟨S800000x1, .f32⟩
  | .hbm, ⟨26, _⟩ => ⟨S_, .f32⟩
  | .hbm, ⟨27, _⟩ => ⟨S800000, .f32⟩
  | .hbm, ⟨28, _⟩ => ⟨S800000, .f32⟩
  | .hbm, ⟨29, _⟩ => ⟨S800000x1, .f32⟩
  | .hbm, ⟨30, _⟩ => ⟨S800000x64, .f32⟩
  | .hbm, ⟨31, _⟩ => ⟨S800000x64, .f32⟩
  | .hbm, ⟨32, _⟩ => ⟨S_, .i32⟩
  | .hbm, ⟨33, _⟩ => ⟨S1250000, .i32⟩
  | .hbm, ⟨34, _⟩ => ⟨S1250000, .i1⟩
  | .hbm, ⟨35, _⟩ => ⟨S_, .i32⟩
  | .hbm, ⟨36, _⟩ => ⟨S1250000, .i32⟩
  | .hbm, ⟨37, _⟩ => ⟨S1250000, .i32⟩
  | .hbm, ⟨38, _⟩ => ⟨S1250000, .i32⟩
  | .hbm, ⟨39, _⟩ => ⟨S1250000x1, .i32⟩
  | .hbm, ⟨40, _⟩ => ⟨S1250000x64, .f32⟩
  | .hbm, ⟨41, _⟩ => ⟨S_, .f32⟩
  | .hbm, ⟨42, _⟩ => ⟨S800000x64, .f32⟩
  | .hbm, ⟨43, _⟩ => ⟨S1250000x1, .i32⟩
  | .hbm, ⟨44, _⟩ => ⟨S800000x64, .f32⟩
  | .hbm, ⟨45, _⟩ => ⟨S800000x64, .f32⟩
  | .hbm, ⟨46, _⟩ => ⟨S800000x64, .f32⟩
  | .hbm, ⟨47, _⟩ => ⟨S800000x64, .f32⟩
  | .hbm, ⟨48, _⟩ => ⟨S_, .i32⟩
  | .hbm, ⟨49, _⟩ => ⟨S1250000, .i32⟩
  | .hbm, ⟨50, _⟩ => ⟨S1250000, .i1⟩
  | .hbm, ⟨51, _⟩ => ⟨S_, .i32⟩
  | .hbm, ⟨52, _⟩ => ⟨S1250000, .i32⟩
  | .hbm, ⟨53, _⟩ => ⟨S1250000, .i32⟩
  | .hbm, ⟨54, _⟩ => ⟨S1250000, .i32⟩
  | .hbm, ⟨55, _⟩ => ⟨S1250000x1, .i32⟩
  | .hbm, ⟨56, _⟩ => ⟨S1250000x64, .f32⟩
  | .hbm, ⟨57, _⟩ => ⟨S_, .f32⟩
  | .hbm, ⟨58, _⟩ => ⟨S800000x64, .f32⟩
  | .hbm, ⟨59, _⟩ => ⟨S1250000x1, .i32⟩
  | .hbm, ⟨60, _⟩ => ⟨S800000x64, .f32⟩
  | .hbm, ⟨61, _⟩ => ⟨S800000x64, .f32⟩
  | .hbm, ⟨62, _⟩ => ⟨S800000x64, .f32⟩
  | .hbm, ⟨63, _⟩ => ⟨S800000x64, .f32⟩
  | .hbm, ⟨64, _⟩ => ⟨S_, .i32⟩
  | .hbm, ⟨65, _⟩ => ⟨S1250000, .i32⟩
  | .hbm, ⟨66, _⟩ => ⟨S1250000, .i1⟩
  | .hbm, ⟨67, _⟩ => ⟨S_, .i32⟩
  | .hbm, ⟨68, _⟩ => ⟨S1250000, .i32⟩
  | .hbm, ⟨69, _⟩ => ⟨S1250000, .i32⟩
  | .hbm, ⟨70, _⟩ => ⟨S1250000, .i32⟩
  | .hbm, ⟨71, _⟩ => ⟨S1250000x1, .i32⟩
  | .hbm, ⟨72, _⟩ => ⟨S1250000x64, .f32⟩
  | .hbm, ⟨73, _⟩ => ⟨S_, .f32⟩
  | .hbm, ⟨74, _⟩ => ⟨S800000x64, .f32⟩
  | .hbm, ⟨75, _⟩ => ⟨S1250000x1, .i32⟩
  | .hbm, ⟨76, _⟩ => ⟨S800000x64, .f32⟩
  | .hbm, ⟨77, _⟩ => ⟨S800000x64, .f32⟩
  | .hbm, ⟨78, _⟩ => ⟨S800000x64, .f32⟩
  | .hbm, ⟨79, _⟩ => ⟨S800000x64, .f32⟩
  | .hbm, ⟨80, _⟩ => ⟨S500000x64, .f32⟩
  | .hbm, ⟨81, _⟩ => ⟨S300000x64, .f32⟩
  | .local _ .vmem, ⟨0, _⟩ => ⟨S40000x64, .f32⟩
  | .local _ .vmem, ⟨1, _⟩ => ⟨S40000x64, .f32⟩
  | .local _ .vmem, ⟨2, _⟩ => ⟨S40000x1, .f32⟩
  | .local _ .vmem, ⟨3, _⟩ => ⟨S40000x1, .f32⟩
  | .local _ .vmem, ⟨4, _⟩ => ⟨S40000x64, .f32⟩
  | .local _ .vmem, ⟨5, _⟩ => ⟨S40000x64, .f32⟩
  | .local _ .vmem, ⟨6, _⟩ => ⟨S16000x64, .f32⟩
  | .local _ .vmem, ⟨7, _⟩ => ⟨S16000x64, .f32⟩
  | .local _ .vmem, ⟨8, _⟩ => ⟨S16000x1, .f32⟩
  | .local _ .vmem, ⟨9, _⟩ => ⟨S16000x1, .f32⟩
  | .local _ .vmem, ⟨10, _⟩ => ⟨S16000x64, .f32⟩
  | .local _ .vmem, ⟨11, _⟩ => ⟨S16000x64, .f32⟩
  | .local _ .vmem, ⟨12, _⟩ => ⟨S16000x64, .f32⟩
  | .local _ .vmem, ⟨13, _⟩ => ⟨S16000x64, .f32⟩
  | .local _ .vmem, ⟨14, _⟩ => ⟨S16000x64, .f32⟩
  | .local _ .vmem, ⟨15, _⟩ => ⟨S16000x64, .f32⟩
  | .local _ .vmem, ⟨16, _⟩ => ⟨S40000x64, .f32⟩
  | .local _ .vmem, ⟨17, _⟩ => ⟨S40000x64, .f32⟩
  | .local _ .vmem, ⟨18, _⟩ => ⟨S40000x1, .f32⟩
  | .local _ .vmem, ⟨19, _⟩ => ⟨S40000x1, .f32⟩
  | .local _ .vmem, ⟨20, _⟩ => ⟨S40000x64, .f32⟩
  | .local _ .vmem, ⟨21, _⟩ => ⟨S40000x64, .f32⟩
  | .local _ .vmem, ⟨22, _⟩ => ⟨S16000x64, .f32⟩
  | .local _ .vmem, ⟨23, _⟩ => ⟨S16000x64, .f32⟩
  | .local _ .vmem, ⟨24, _⟩ => ⟨S16000x1, .f32⟩
  | .local _ .vmem, ⟨25, _⟩ => ⟨S16000x1, .f32⟩
  | .local _ .vmem, ⟨26, _⟩ => ⟨S16000x64, .f32⟩
  | .local _ .vmem, ⟨27, _⟩ => ⟨S16000x64, .f32⟩
  | .local _ .vmem, ⟨28, _⟩ => ⟨S16000x64, .f32⟩
  | .local _ .vmem, ⟨29, _⟩ => ⟨S16000x64, .f32⟩
  | .local _ .vmem, ⟨30, _⟩ => ⟨S16000x64, .f32⟩
  | .local _ .vmem, ⟨31, _⟩ => ⟨S16000x64, .f32⟩
  | .local _ .vmem, ⟨32, _⟩ => ⟨S40000x64, .f32⟩
  | .local _ .vmem, ⟨33, _⟩ => ⟨S40000x64, .f32⟩
  | .local _ .vmem, ⟨34, _⟩ => ⟨S40000x1, .f32⟩
  | .local _ .vmem, ⟨35, _⟩ => ⟨S40000x1, .f32⟩
  | .local _ .vmem, ⟨36, _⟩ => ⟨S40000x64, .f32⟩
  | .local _ .vmem, ⟨37, _⟩ => ⟨S40000x64, .f32⟩
  | .local _ .vmem, ⟨38, _⟩ => ⟨S16000x64, .f32⟩
  | .local _ .vmem, ⟨39, _⟩ => ⟨S16000x64, .f32⟩
  | .local _ .vmem, ⟨40, _⟩ => ⟨S16000x1, .f32⟩
  | .local _ .vmem, ⟨41, _⟩ => ⟨S16000x1, .f32⟩
  | .local _ .vmem, ⟨42, _⟩ => ⟨S16000x64, .f32⟩
  | .local _ .vmem, ⟨43, _⟩ => ⟨S16000x64, .f32⟩
  | .local _ .vmem, ⟨44, _⟩ => ⟨S16000x64, .f32⟩
  | .local _ .vmem, ⟨45, _⟩ => ⟨S16000x64, .f32⟩
  | .local _ .vmem, ⟨46, _⟩ => ⟨S16000x64, .f32⟩
  | .local _ .vmem, ⟨47, _⟩ => ⟨S16000x64, .f32⟩
  | .local _ .vmem, ⟨48, _⟩ => ⟨S40000x64, .f32⟩
  | .local _ .vmem, ⟨49, _⟩ => ⟨S40000x64, .f32⟩
  | .local _ .vmem, ⟨50, _⟩ => ⟨S40000x64, .f32⟩
  | .local _ .vmem, ⟨51, _⟩ => ⟨S40000x64, .f32⟩
  | _, _ => ⟨S500000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_call0_v0 : Ref sig .tc := ⟨.hbm, 11, rfl⟩
abbrev main_call0_v1 : Ref sig .tc := ⟨.hbm, 12, rfl⟩
abbrev main_v4 : Ref sig .tc := ⟨.hbm, 13, rfl⟩
abbrev main_cst_2 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_3 : Ref sig .tc := ⟨.hbm, 18, rfl⟩
abbrev main_call1_v0 : Ref sig .tc := ⟨.hbm, 19, rfl⟩
abbrev main_call1_v1 : Ref sig .tc := ⟨.hbm, 20, rfl⟩
abbrev main_v8 : Ref sig .tc := ⟨.hbm, 21, rfl⟩
abbrev main_cst_4 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_5 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_6 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_7 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27_0 : Ref sig .tc := ⟨.hbm, 45, rfl⟩
abbrev main_v27_1 : Ref sig .tc := ⟨.hbm, 46, rfl⟩
abbrev main_v28 : Ref sig .tc := ⟨.hbm, 47, rfl⟩
abbrev main_c_8 : Ref sig .tc := ⟨.hbm, 48, rfl⟩
abbrev main_v29 : Ref sig .tc := ⟨.hbm, 49, rfl⟩
abbrev main_v30 : Ref sig .tc := ⟨.hbm, 50, rfl⟩
abbrev main_c_9 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_10 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39_0 : Ref sig .tc := ⟨.hbm, 61, rfl⟩
abbrev main_v39_1 : Ref sig .tc := ⟨.hbm, 62, rfl⟩
abbrev main_v40 : Ref sig .tc := ⟨.hbm, 63, rfl⟩
abbrev main_c_11 : Ref sig .tc := ⟨.hbm, 64, rfl⟩
abbrev main_v41 : Ref sig .tc := ⟨.hbm, 65, rfl⟩
abbrev main_v42 : Ref sig .tc := ⟨.hbm, 66, rfl⟩
abbrev main_c_12 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_13 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51_0 : Ref sig .tc := ⟨.hbm, 77, rfl⟩
abbrev main_v51_1 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg2_1 : Ref sig .tc := ⟨.vmem, 27, rfl⟩
abbrev cc3_stg3_0 : Ref sig .tc := ⟨.vmem, 28, rfl⟩
abbrev cc3_stg3_1 : Ref sig .tc := ⟨.vmem, 29, rfl⟩
abbrev cc3_stg4_0 : Ref sig .tc := ⟨.vmem, 30, rfl⟩
abbrev cc3_stg4_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg1_1 : Ref sig .tc := ⟨.vmem, 35, rfl⟩
abbrev cc4_stg2_0 : Ref sig .tc := ⟨.vmem, 36, rfl⟩
abbrev cc4_stg2_1 : Ref sig .tc := ⟨.vmem, 37, rfl⟩
abbrev cc5_stg0_0 : Ref sig .tc := ⟨.vmem, 38, rfl⟩
abbrev cc5_stg0_1 : Ref sig .tc := ⟨.vmem, 39, rfl⟩
abbrev cc5_stg1_0 : Ref sig .tc := ⟨.vmem, 40, rfl⟩
abbrev cc5_stg1_1 : Ref sig .tc := ⟨.vmem, 41, rfl⟩
abbrev cc5_stg2_0 : Ref sig .tc := ⟨.vmem, 42, rfl⟩
abbrev cc5_stg2_1 : Ref sig .tc := ⟨.vmem, 43, rfl⟩
abbrev cc5_stg3_0 : Ref sig .tc := ⟨.vmem, 44, rfl⟩
abbrev cc5_stg3_1 : Ref sig .tc := ⟨.vmem, 45, rfl⟩
abbrev cc5_stg4_0 : Ref sig .tc := ⟨.vmem, 46, rfl⟩
abbrev cc5_stg4_1 : Ref sig .tc := ⟨.vmem, 47, rfl⟩
abbrev cc6_stg0_0 : Ref sig .tc := ⟨.vmem, 48, rfl⟩
abbrev cc6_stg0_1 : Ref sig .tc := ⟨.vmem, 49, rfl⟩
abbrev cc6_stg1_0 : Ref sig .tc := ⟨.vmem, 50, rfl⟩
abbrev cc6_stg1_1 : Ref sig .tc := ⟨.vmem, 51, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem2_1 : DmaSem sig := 27
abbrev cc3_sem3_0 : DmaSem sig := 28
abbrev cc3_sem3_1 : DmaSem sig := 29
abbrev cc3_sem4_0 : DmaSem sig := 30
abbrev cc3_sem4_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem2_1 : DmaSem sig := 37
abbrev cc5_sem0_0 : DmaSem sig := 38
abbrev cc5_sem0_1 : DmaSem sig := 39
abbrev cc5_sem1_0 : DmaSem sig := 40
abbrev cc5_sem1_1 : DmaSem sig := 41
abbrev cc5_sem2_0 : DmaSem sig := 42
abbrev cc5_sem2_1 : DmaSem sig := 43
abbrev cc5_sem3_0 : DmaSem sig := 44
abbrev cc5_sem3_1 : DmaSem sig := 45
abbrev cc5_sem4_0 : DmaSem sig := 46
abbrev cc5_sem4_1 : DmaSem sig := 47
abbrev cc6_sem0_0 : DmaSem sig := 48
abbrev cc6_sem0_1 : DmaSem sig := 49
abbrev cc6_sem1_0 : DmaSem sig := 50
abbrev cc6_sem1_1 : DmaSem sig := 51

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S40000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S40000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S40000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S16000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S16000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S16000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S16000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S16000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S40000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S40000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S40000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S16000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S16000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S16000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S16000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S16000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S40000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S40000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S40000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S16000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S16000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S16000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S16000x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S16000x64 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S40000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S40000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

class Facts₀ : Prop where
  bcast_S_S1250000 : S_.BroadcastsInDim S1250000 (![] : Fin 0 → Fin S1250000.rank)
  bcast_S_S800000 : S_.BroadcastsInDim S800000 (![] : Fin 0 → Fin S800000.rank)
  bcast_S1250000_S1250000x1_0 : S1250000.BroadcastsInDim S1250000x1 (![0] : Fin 1 → Fin S1250000x1.rank)
  shapeCasts_S800000_S800000x1 : S800000.ShapeCasts S800000x1
  concatenates_S500000x64_S300000x64_S800000x64_d0 : Shape.Concatenates [S500000x64, S300000x64] S800000x64 0
  inb_S40000x64_S40000x64_0_0 : ∀ a, (![0, 0] : Fin 2 → Nat) a + S40000x64.size a ≤ S40000x64.size a
  h_S40000x64 : 0 < S40000x64.numel
  shapeCasts_S40000x64_S40000x64 : S40000x64.ShapeCasts S40000x64
  inb_S40000x1_S40000x1_0_0 : ∀ a, (![0, 0] : Fin 2 → Nat) a + S40000x1.size a ≤ S40000x1.size a
  h_S40000x1 : 0 < S40000x1.numel
  shapeCasts_S40000x1_S40000x1 : S40000x1.ShapeCasts S40000x1
  broadcasts_S40000x1_S40000x64 : S40000x1.Broadcasts S40000x64
  bcast_S_S800000x64 : S_.BroadcastsInDim S800000x64 (![] : Fin 0 → Fin S800000x64.rank)
  inb_S16000x64_S16000x64_0_0 : ∀ a, (![0, 0] : Fin 2 → Nat) a + S16000x64.size a ≤ S16000x64.size a
  h_S16000x64 : 0 < S16000x64.numel
  shapeCasts_S16000x64_S16000x64 : S16000x64.ShapeCasts S16000x64
  inb_S16000x1_S16000x1_0_0 : ∀ a, (![0, 0] : Fin 2 → Nat) a + S16000x1.size a ≤ S16000x1.size a
  h_S16000x1 : 0 < S16000x1.numel
  shapeCasts_S16000x1_S16000x1 : S16000x1.ShapeCasts S16000x1
  broadcasts_S16000x1_S16000x64 : S16000x1.Broadcasts S16000x64
  slices_S800000x64_S500000x64_0_0 : S800000x64.Slices ![0, 0] S500000x64
  slices_S800000x64_S300000x64_500000_0 : S800000x64.Slices ![500000, 0] S300000x64
  scatter_S800000_S1250000x1_S1250000_n_0_0_1_wf : ScatterDims.WF S800000 S1250000x1 S1250000 [] [0] [0] 1
  gather_S800000x64_S1250000x1_S1250000x64_1_0_n_n_0_1_164_wf : GatherDims.WF S800000x64 S1250000x1 S1250000x64 [1] [0] [] [0] [] 1 ![1, 64]
  scatter_S800000x64_S1250000x1_S1250000x64_1_0_0_1_wf : ScatterDims.WF S800000x64 S1250000x1 S1250000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S40000x64.size a ≤ S800000x64.size a
  hwx0_0 : ∀ i : grid0.Coords, EltTy.bits .f32 = 32 ∨ (Rect.block (s := S800000x64) S40000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S40000x1.size a ≤ S800000x1.size a
  hwx0_1 : ∀ i : grid0.Coords, EltTy.bits .f32 = 32 ∨ (Rect.block (s := S800000x1) S40000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S40000x64.size a ≤ S800000x64.size a
  hwx0_2 : ∀ i : grid0.Coords, EltTy.bits .f32 = 32 ∨ (Rect.block (s := S800000x64) S40000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16000x64.size a ≤ S800000x64.size a
  hwx1_0 : ∀ i : grid1.Coords, EltTy.bits .f32 = 32 ∨ (Rect.block (s := S800000x64) S16000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S16000x1.size a ≤ S800000x1.size a
  hwx1_1 : ∀ i : grid1.Coords, EltTy.bits .f32 = 32 ∨ (Rect.block (s := S800000x1) S16000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S16000x64.size a ≤ S800000x64.size a
  hwx1_2 : ∀ i : grid1.Coords, EltTy.bits .f32 = 32 ∨ (Rect.block (s := S800000x64) S16000x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S16000x64.size a ≤ S800000x64.size a
  hwx1_3 : ∀ i : grid1.Coords, EltTy.bits .f32 = 32 ∨ (Rect.block (s := S800000x64) S16000x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S16000x64.size a ≤ S800000x64.size a
  hwx1_4 : ∀ i : grid1.Coords, EltTy.bits .f32 = 32 ∨ (Rect.block (s := S800000x64) S16000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S40000x64.size a ≤ S800000x64.size a
  hwx2_0 : ∀ i : grid2.Coords, EltTy.bits .f32 = 32 ∨ (Rect.block (s := S800000x64) S40000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S40000x1.size a ≤ S800000x1.size a
  hwx2_1 : ∀ i : grid2.Coords, EltTy.bits .f32 = 32 ∨ (Rect.block (s := S800000x1) S40000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S40000x64.size a ≤ S800000x64.size a
  hwx2_2 : ∀ i : grid2.Coords, EltTy.bits .f32 = 32 ∨ (Rect.block (s := S800000x64) S40000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S16000x64.size a ≤ S800000x64.size a
  hwx3_0 : ∀ i : grid3.Coords, EltTy.bits .f32 = 32 ∨ (Rect.block (s := S800000x64) S16000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S16000x1.size a ≤ S800000x1.size a
  hwx3_1 : ∀ i : grid3.Coords, EltTy.bits .f32 = 32 ∨ (Rect.block (s := S800000x1) S16000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S16000x64.size a ≤ S800000x64.size a
  hwx3_2 : ∀ i : grid3.Coords, EltTy.bits .f32 = 32 ∨ (Rect.block (s := S800000x64) S16000x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S16000x64.size a ≤ S800000x64.size a
  hwx3_3 : ∀ i : grid3.Coords, EltTy.bits .f32 = 32 ∨ (Rect.block (s := S800000x64) S16000x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S16000x64.size a ≤ S800000x64.size a
  hwx3_4 : ∀ i : grid3.Coords, EltTy.bits .f32 = 32 ∨ (Rect.block (s := S800000x64) S16000x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S40000x64.size a ≤ S800000x64.size a
  hwx4_0 : ∀ i : grid4.Coords, EltTy.bits .f32 = 32 ∨ (Rect.block (s := S800000x64) S40000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S40000x1.size a ≤ S800000x1.size a
  hwx4_1 : ∀ i : grid4.Coords, EltTy.bits .f32 = 32 ∨ (Rect.block (s := S800000x1) S40000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S40000x64.size a ≤ S800000x64.size a
  hwx4_2 : ∀ i : grid4.Coords, EltTy.bits .f32 = 32 ∨ (Rect.block (s := S800000x64) S40000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S16000x64.size a ≤ S800000x64.size a
  hwx5_0 : ∀ i : grid5.Coords, EltTy.bits .f32 = 32 ∨ (Rect.block (s := S800000x64) S16000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S16000x1.size a ≤ S800000x1.size a
  hwx5_1 : ∀ i : grid5.Coords, EltTy.bits .f32 = 32 ∨ (Rect.block (s := S800000x1) S16000x1.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S16000x64.size a ≤ S800000x64.size a
  hwx5_2 : ∀ i : grid5.Coords, EltTy.bits .f32 = 32 ∨ (Rect.block (s := S800000x64) S16000x64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S16000x64.size a ≤ S800000x64.size a
  hwx5_3 : ∀ i : grid5.Coords, EltTy.bits .f32 = 32 ∨ (Rect.block (s := S800000x64) S16000x64.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S16000x64.size a ≤ S800000x64.size a
  hwx5_4 : ∀ i : grid5.Coords, EltTy.bits .f32 = 32 ∨ (Rect.block (s := S800000x64) S16000x64.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S40000x64.size a ≤ S800000x64.size a
  hwx6_0 : ∀ i : grid6.Coords, EltTy.bits .f32 = 32 ∨ (Rect.block (s := S800000x64) S40000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S40000x64.size a ≤ S800000x64.size a
  hwx6_1 : ∀ i : grid6.Coords, EltTy.bits .f32 = 32 ∨ (Rect.block (s := S800000x64) S40000x64.size (cc6_transform_1 i) (hinb6_1 i)).WholeWords (EltTy.packing .f32)

variable [Facts₀]

def scatter_S800000_S1250000x1_S1250000_n_0_0_1 : ScatterDims S800000 S1250000x1 S1250000 where
  updateWindowDims := []
  insertedWindowDims := [0]
  scatterDimsToOperandDims := [0]
  indexVectorDim := 1
  wf := scatter_S800000_S1250000x1_S1250000_n_0_0_1_wf
def gather_S800000x64_S1250000x1_S1250000x64_1_0_n_n_0_1_164 : GatherDims S800000x64 S1250000x1 S1250000x64 where
  offsetDims := [1]
  collapsedSliceDims := [0]
  operandBatchingDims := []
  startIndicesBatchingDims := []
  startIndexMap := [0]
  indexVectorDim := 1
  sliceSizes := ![1, 64]
  wf := gather_S800000x64_S1250000x1_S1250000x64_1_0_n_n_0_1_164_wf
def scatter_S800000x64_S1250000x1_S1250000x64_1_0_0_1 : ScatterDims S800000x64 S1250000x1 S1250000x64 where
  updateWindowDims := [1]
  insertedWindowDims := [0]
  scatterDimsToOperandDims := [0]
  indexVectorDim := 1
  wf := scatter_S800000x64_S1250000x1_S1250000x64_1_0_0_1_wf

abbrev win0_0 : Pipeline.Window sig grid0 :=
  Pipeline.Window.ofSpec (Memref.whole main_v15) S40000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S40000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S40000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v26) S16000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S16000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S16000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v27_0) S16000x64.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v27_1) S16000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v27_0) S40000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v11) S40000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v28) S40000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v38) S16000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v14) S16000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v27_1) S16000x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v39_0) S16000x64.size cc3_transform_3 reads3_3 true false 2 stage3_3 sem3_3
    hrank3 hreads3_3 hinb3_3 nbuf3_3 (Memref.isWhole_whole _) hwx3_3 hstage3_3

abbrev win3_4 : Pipeline.Window sig grid3 :=
  Pipeline.Window.ofSpec (Memref.whole main_v39_1) S16000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v39_0) S40000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v11) S40000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v40) S40000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v50) S16000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v14) S16000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v39_1) S16000x64.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v51_0) S16000x64.size cc5_transform_3 reads5_3 true false 2 stage5_3 sem5_3
    hrank5 hreads5_3 hinb5_3 nbuf5_3 (Memref.isWhole_whole _) hwx5_3 hstage5_3

abbrev win5_4 : Pipeline.Window sig grid5 :=
  Pipeline.Window.ofSpec (Memref.whole main_v51_1) S16000x64.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v51_1) S40000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v52) S40000x64.size cc6_transform_1 reads6_1 true false 2 stage6_1 sem6_1
    hrank6 hreads6_1 hinb6_1 nbuf6_1 (Memref.isWhole_whole _) hwx6_1 hstage6_1

abbrev win6 : Fin 2 → Pipeline.Window sig grid6 := fun | 0 => win6_0 | 1 => win6_1 | ⟨_ + 2, h⟩ => absurd h (Nat.not_lt.2 (Nat.le_add_left _ _))
abbrev spec6 : Fin 2 → Pipeline.WinSpec sig grid6.rank := fun w => (win6 w).toWinSpec

class Facts : Prop extends Facts₀ where

variable [Facts]
-- ==== ReferenceIdeal.lean ====
abbrev S500000x64 : Shape := ⟨2, ![500000, 64]⟩
abbrev S300000x64 : Shape := ⟨2, ![300000, 64]⟩
abbrev S1250000 : Shape := ⟨1, ![1250000]⟩
abbrev S_ : Shape := ⟨0, ![]⟩
abbrev S800000 : Shape := ⟨1, ![800000]⟩
abbrev S1250000x1 : Shape := ⟨2, ![1250000, 1]⟩
abbrev S800000x64 : Shape := ⟨2, ![800000, 64]⟩
abbrev S800000x1 : Shape := ⟨2, ![800000, 1]⟩
abbrev S1250000x64 : Shape := ⟨2, ![1250000, 64]⟩

abbrev nBuf : Space → Nat
  | .hbm => 94
  | .vmem => 0
  | .smem => 0
  | _ => 0

abbrev bufTy : (tb : Table) → Fin (tcTables nBuf tb) → BufTy
  | .hbm, ⟨0, _⟩ => ⟨S500000x64, .f32⟩
  | .hbm, ⟨1, _⟩ => ⟨S300000x64, .f32⟩
  | .hbm, ⟨2, _⟩ => ⟨S1250000, .i32⟩
  | .hbm, ⟨3, _⟩ => ⟨S1250000, .i32⟩
  | .hbm, ⟨4, _⟩ => ⟨S_, .f32⟩
  | .hbm, ⟨5, _⟩ => ⟨S1250000, .f32⟩
  | .hbm, ⟨6, _⟩ => ⟨S_, .f32⟩
  | .hbm, ⟨7, _⟩ => ⟨S800000, .f32⟩
  | .hbm, ⟨8, _⟩ => ⟨S1250000x1, .i32⟩
  | .hbm, ⟨9, _⟩ => ⟨S800000, .f32⟩
  | .hbm, ⟨10, _⟩ => ⟨S_, .f32⟩
  | .hbm, ⟨11, _⟩ => ⟨S_, .f32⟩
  | .hbm, ⟨12, _⟩ => ⟨S800000, .f32⟩
  | .hbm, ⟨13, _⟩ => ⟨S800000, .f32⟩
  | .hbm, ⟨14, _⟩ => ⟨S_, .f32⟩
  | .hbm, ⟨15, _⟩ => ⟨S800000, .f32⟩
  | .hbm, ⟨16, _⟩ => ⟨S1250000x1, .i32⟩
  | .hbm, ⟨17, _⟩ => ⟨S800000, .f32⟩
  | .hbm, ⟨18, _⟩ => ⟨S_, .f32⟩
  | .hbm, ⟨19, _⟩ => ⟨S_, .f32⟩
  | .hbm, ⟨20, _⟩ => ⟨S800000, .f32⟩
  | .hbm, ⟨21, _⟩ => ⟨S800000, .f32⟩
  | .hbm, ⟨22, _⟩ => ⟨S_, .f32⟩
  | .hbm, ⟨23, _⟩ => ⟨S800000, .f32⟩
  | .hbm, ⟨24, _⟩ => ⟨S800000, .f32⟩
  | .hbm, ⟨25, _⟩ => ⟨S_, .f32⟩
  | .hbm, ⟨26, _⟩ => ⟨S800000, .f32⟩
  | .hbm, ⟨27, _⟩ => ⟨S800000, .f32⟩
  | .hbm, ⟨28, _⟩ => ⟨S800000x64, .f32⟩
  | .hbm, ⟨29, _⟩ => ⟨S800000x1, .f32⟩
  | .hbm, ⟨30, _⟩ => ⟨S800000x64, .f32⟩
  | .hbm, ⟨31, _⟩ => ⟨S800000x64, .f32⟩
  | .hbm, ⟨32, _⟩ => ⟨S_, .i32⟩
  | .hbm, ⟨33, _⟩ => ⟨S1250000, .i32⟩
  | .hbm, ⟨34, _⟩ => ⟨S1250000, .i1⟩
  | .hbm, ⟨35, _⟩ => ⟨S_, .i32⟩
  | .hbm, ⟨36, _⟩ => ⟨S1250000, .i32⟩
  | .hbm, ⟨37, _⟩ => ⟨S1250000, .i32⟩
  | .hbm, ⟨38, _⟩ => ⟨S1250000, .i32⟩
  | .hbm, ⟨39, _⟩ => ⟨S1250000x1, .i32⟩
  | .hbm, ⟨40, _⟩ => ⟨S1250000x64, .f32⟩
  | .hbm, ⟨41, _⟩ => ⟨S_, .f32⟩
  | .hbm, ⟨42, _⟩ => ⟨S800000x64, .f32⟩
  | .hbm, ⟨43, _⟩ => ⟨S1250000x1, .i32⟩
  | .hbm, ⟨44, _⟩ => ⟨S800000x64, .f32⟩
  | .hbm, ⟨45, _⟩ => ⟨S800000x1, .f32⟩
  | .hbm, ⟨46, _⟩ => ⟨S800000x64, .f32⟩
  | .hbm, ⟨47, _⟩ => ⟨S800000x64, .f32⟩
  | .hbm, ⟨48, _⟩ => ⟨S800000x64, .f32⟩
  | .hbm, ⟨49, _⟩ => ⟨S800000x1, .f32⟩
  | .hbm, ⟨50, _⟩ => ⟨S800000x64, .f32⟩
  | .hbm, ⟨51, _⟩ => ⟨S800000x64, .f32⟩
  | .hbm, ⟨52, _⟩ => ⟨S_, .i32⟩
  | .hbm, ⟨53, _⟩ => ⟨S1250000, .i32⟩
  | .hbm, ⟨54, _⟩ => ⟨S1250000, .i1⟩
  | .hbm, ⟨55, _⟩ => ⟨S_, .i32⟩
  | .hbm, ⟨56, _⟩ => ⟨S1250000, .i32⟩
  | .hbm, ⟨57, _⟩ => ⟨S1250000, .i32⟩
  | .hbm, ⟨58, _⟩ => ⟨S1250000, .i32⟩
  | .hbm, ⟨59, _⟩ => ⟨S1250000x1, .i32⟩
  | .hbm, ⟨60, _⟩ => ⟨S1250000x64, .f32⟩
  | .hbm, ⟨61, _⟩ => ⟨S_, .f32⟩
  | .hbm, ⟨62, _⟩ => ⟨S800000x64, .f32⟩
  | .hbm, ⟨63, _⟩ => ⟨S1250000x1, .i32⟩
  | .hbm, ⟨64, _⟩ => ⟨S800000x64, .f32⟩
  | .hbm, ⟨65, _⟩ => ⟨S800000x1, .f32⟩
  | .hbm, ⟨66, _⟩ => ⟨S800000x64, .f32⟩
  | .hbm, ⟨67, _⟩ => ⟨S800000x64, .f32⟩
  | .hbm, ⟨68, _⟩ => ⟨S800000x64, .f32⟩
  | .hbm, ⟨69, _⟩ => ⟨S800000x1, .f32⟩
  | .hbm, ⟨70, _⟩ => ⟨S800000x64, .f32⟩
  | .hbm, ⟨71, _⟩ => ⟨S800000x64, .f32⟩
  | .hbm, ⟨72, _⟩ => ⟨S_, .i32⟩
  | .hbm, ⟨73, _⟩ => ⟨S1250000, .i32⟩
  | .hbm, ⟨74, _⟩ => ⟨S1250000, .i1⟩
  | .hbm, ⟨75, _⟩ => ⟨S_, .i32⟩
  | .hbm, ⟨76, _⟩ => ⟨S1250000, .i32⟩
  | .hbm, ⟨77, _⟩ => ⟨S1250000, .i32⟩
  | .hbm, ⟨78, _⟩ => ⟨S1250000, .i32⟩
  | .hbm, ⟨79, _⟩ => ⟨S1250000x1, .i32⟩
  | .hbm, ⟨80, _⟩ => ⟨S1250000x64, .f32⟩
  | .hbm, ⟨81, _⟩ => ⟨S_, .f32⟩
  | .hbm, ⟨82, _⟩ => ⟨S800000x64, .f32⟩
  | .hbm, ⟨83, _⟩ => ⟨S1250000x1, .i32⟩
  | .hbm, ⟨84, _⟩ => ⟨S800000x64, .f32⟩
  | .hbm, ⟨85, _⟩ => ⟨S800000x1, .f32⟩
  | .hbm, ⟨86, _⟩ => ⟨S800000x64, .f32⟩
  | .hbm, ⟨87, _⟩ => ⟨S800000x64, .f32⟩
  | .hbm, ⟨88, _⟩ => ⟨S800000x64, .f32⟩
  | .hbm, ⟨89, _⟩ => ⟨S_, .f32⟩
  | .hbm, ⟨90, _⟩ => ⟨S800000x64, .f32⟩
  | .hbm, ⟨91, _⟩ => ⟨S800000x64, .f32⟩
  | .hbm, ⟨92, _⟩ => ⟨S500000x64, .f32⟩
  | .hbm, ⟨93, _⟩ => ⟨S300000x64, .f32⟩
  | _, _ => ⟨S500000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_call0_v0 : Ref sig .tc := ⟨.hbm, 11, rfl⟩
abbrev main_call0_v1 : Ref sig .tc := ⟨.hbm, 12, rfl⟩
abbrev main_v4 : Ref sig .tc := ⟨.hbm, 13, rfl⟩
abbrev main_cst_2 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_3 : Ref sig .tc := ⟨.hbm, 18, rfl⟩
abbrev main_call1_v0 : Ref sig .tc := ⟨.hbm, 19, rfl⟩
abbrev main_call1_v1 : Ref sig .tc := ⟨.hbm, 20, rfl⟩
abbrev main_v8 : Ref sig .tc := ⟨.hbm, 21, rfl⟩
abbrev main_cst_4 : Ref sig .tc := ⟨.hbm, 22, rfl⟩
abbrev main_v9 : Ref sig .tc := ⟨.hbm, 23, rfl⟩
abbrev main_v10 : Ref sig .tc := ⟨.hbm, 24, rfl⟩
abbrev main_cst_5 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_6 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_7 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_c_8 : Ref sig .tc := ⟨.hbm, 52, rfl⟩
abbrev main_v34 : Ref sig .tc := ⟨.hbm, 53, rfl⟩
abbrev main_v35 : Ref sig .tc := ⟨.hbm, 54, rfl⟩
abbrev main_c_9 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_10 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_c_11 : Ref sig .tc := ⟨.hbm, 72, rfl⟩
abbrev main_v51 : Ref sig .tc := ⟨.hbm, 73, rfl⟩
abbrev main_v52 : Ref sig .tc := ⟨.hbm, 74, rfl⟩
abbrev main_c_12 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_13 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_14 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩

abbrev nD : Nat := 1
abbrev τ : Topo := Topo.v7x

variable {F : FTy → Type} [FloatOps F]

class Facts₀ : Prop where
  bcast_S_S1250000 : S_.BroadcastsInDim S1250000 (![] : Fin 0 → Fin S1250000.rank)
  bcast_S_S800000 : S_.BroadcastsInDim S800000 (![] : Fin 0 → Fin S800000.rank)
  bcast_S1250000_S1250000x1_0 : S1250000.BroadcastsInDim S1250000x1 (![0] : Fin 1 → Fin S1250000x1.rank)
  concatenates_S500000x64_S300000x64_S800000x64_d0 : Shape.Concatenates [S500000x64, S300000x64] S800000x64 0
  bcast_S800000_S800000x1_0 : S800000.BroadcastsInDim S800000x1 (![0] : Fin 1 → Fin S800000x1.rank)
  bcast_S800000x1_S800000x64_0_1 : S800000x1.BroadcastsInDim S800000x64 (![0, 1] : Fin 2 → Fin S800000x64.rank)
  bcast_S_S800000x64 : S_.BroadcastsInDim S800000x64 (![] : Fin 0 → Fin S800000x64.rank)
  slices_S800000x64_S500000x64_0_0 : S800000x64.Slices ![0, 0] S500000x64
  slices_S800000x64_S300000x64_500000_0 : S800000x64.Slices ![500000, 0] S300000x64
  scatter_S800000_S1250000x1_S1250000_n_0_0_1_wf : ScatterDims.WF S800000 S1250000x1 S1250000 [] [0] [0] 1
  gather_S800000x64_S1250000x1_S1250000x64_1_0_n_n_0_1_164_wf : GatherDims.WF S800000x64 S1250000x1 S1250000x64 [1] [0] [] [0] [] 1 ![1, 64]
  scatter_S800000x64_S1250000x1_S1250000x64_1_0_0_1_wf : ScatterDims.WF S800000x64 S1250000x1 S1250000x64 [1] [0] [0] 1

variable [Facts₀]

def scatter_S800000_S1250000x1_S1250000_n_0_0_1 : ScatterDims S800000 S1250000x1 S1250000 where
  updateWindowDims := []
  insertedWindowDims := [0]
  scatterDimsToOperandDims := [0]
  indexVectorDim := 1
  wf := scatter_S800000_S1250000x1_S1250000_n_0_0_1_wf
def gather_S800000x64_S1250000x1_S1250000x64_1_0_n_n_0_1_164 : GatherDims S800000x64 S1250000x1 S1250000x64 where
  offsetDims := [1]
  collapsedSliceDims := [0]
  operandBatchingDims := []
  startIndicesBatchingDims := []
  startIndexMap := [0]
  indexVectorDim := 1
  sliceSizes := ![1, 64]
  wf := gather_S800000x64_S1250000x1_S1250000x64_1_0_n_n_0_1_164_wf
def scatter_S800000x64_S1250000x1_S1250000x64_1_0_0_1 : ScatterDims S800000x64 S1250000x1 S1250000x64 where
  updateWindowDims := [1]
  insertedWindowDims := [0]
  scatterDimsToOperandDims := [0]
  indexVectorDim := 1
  wf := scatter_S800000x64_S1250000x1_S1250000x64_1_0_0_1_wf

class Facts : Prop extends Facts₀ where

variable [Facts]
-- ==== Proof.Spec.lean ====
/-
  The propagation both programs compute, written once as whole-array operations.

  With `n = 800000` nodes and `E = 1250000` edges `(src e, dst e)`: the degree normalisers are
  `ns = max(1, #{e | src e = v})^(-1/2)` and `nd = max(1, #{e | dst e = v})^(-1/2)` (a scatter-add of ones,
  clamped below by one, raised to the power -1/2); the table `h₀` stacks the user rows over the item rows; one
  layer sends `h` to `A h = nd ⊙ scatter_dst (gather_src (ns ⊙ h))` (`⊙` scales row `v` by the normaliser's entry
  `v`); the result is `(h₀ + A h₀ + A² h₀ + A³ h₀) / 4`, cut back into the user rows and the item rows.
  Gather and scatter-add are carried as the host operations they are, never opened: both programs apply them to
  the same operands, so only the row scalings and the final division have to be compared.
-/
import proofs.«423855_j86131274154844_1_alg».proof.Proof.Gen.ReferenceIdeal
import Idealize.ShloMosaic.PureOps.Ideal
import Idealize.ShloMosaic.PureOps.Ideal.Laws
import Idealize.ShloMosaic.Lib.ValueIdx
import Idealize.ShloMosaic.Lib.Pipeline.Value

noncomputable section

namespace Cert.Propagation

open Idealize.ShloMosaic Idealize.ShloMosaic.ValueIdx Cert.ReferenceIdeal Cert.ReferenceIdeal.Gen

variable {F : FTy → Type} [FloatOps F]

/-- `max(1, deg)^(-1/2)`, `deg v` the number of edges whose endpoint in `idx` is `v` (a scatter-add of ones onto zeros). -/
def invSqrtDeg (idx : IVec S1250000 32) : FVec F S800000 .f32 :=
  Host.powf (maximumf (broadcastInDim S800000 ![] bcast_S_S800000 (id (constant S_ .f32 0x3F800000#32)))
      (Host.scatterAdd scatter_S800000_S1250000x1_S1250000_n_0_0_1 (broadcastInDim S800000 ![] bcast_S_S800000 (constant S_ .f32 0x00000000#32))
        (broadcastInDim S1250000x1 ![0] bcast_S1250000_S1250000x1_0 idx)
        (broadcastInDim S1250000 ![] bcast_S_S1250000 (constant S_ .f32 0x3F800000#32))))
    (broadcastInDim S800000 ![] bcast_S_S800000 (constant S_ .f32 0xBF000000#32))

/-- The node table: the user rows above the item rows. -/
def table (users : FVec F S500000x64 .f32) (items : FVec F S300000x64 .f32) : FVec F S800000x64 .f32 :=
  concatenate S800000x64 0 [⟨S500000x64, users⟩, ⟨S300000x64, items⟩] concatenates_S500000x64_S300000x64_S800000x64_d0

/-- Row `v` of `x` times entry `v` of `nrm`, the normaliser broadcast along the features. -/
def rowScale (x : FVec F S800000x64 .f32) (nrm : FVec F S800000 .f32) : FVec F S800000x64 .f32 :=
  mulf x (broadcastInDim S800000x64 ![0, 1] bcast_S800000x1_S800000x64_0_1 (broadcastInDim S800000x1 ![0] bcast_S800000_S800000x1_0 nrm))

/-- A negative node id counted from the end (numpy's wrap), as the gather's column of start indices. -/
def wrapped (idx : IVec S1250000 32) : IVec S1250000x1 32 :=
  broadcastInDim S1250000x1 ![0] bcast_S1250000_S1250000x1_0
    (select (cmpi .slt idx (broadcastInDim S1250000 ![] bcast_S_S1250000 (constantI S_ 32 0#32)))
      (addi idx (broadcastInDim S1250000 ![] bcast_S_S1250000 (constantI S_ 32 800000#32))) idx)

/-- Every edge carries its source's row to its destination, the rows arriving at one node added up. -/
def aggregate (x : FVec F S800000x64 .f32) (src dst : IVec S1250000 32) : FVec F S800000x64 .f32 :=
  Host.scatterAdd scatter_S800000x64_S1250000x1_S1250000x64_1_0_0_1 (broadcastInDim S800000x64 ![] bcast_S_S800000x64 (constant S_ .f32 0x00000000#32))
    (broadcastInDim S1250000x1 ![0] bcast_S1250000_S1250000x1_0 dst)
    (Host.gather gather_S800000x64_S1250000x1_S1250000x64_1_0_n_n_0_1_164 x (wrapped src))

/-- One layer on a table already scaled by the source normaliser: aggregate, then scale by the destination normaliser. -/
def layer (hs : FVec F S800000x64 .f32) (src dst : IVec S1250000 32) : FVec F S800000x64 .f32 :=
  rowScale (aggregate hs src dst) (invSqrtDeg dst)

/-- The first, second and third layer's tables. -/
def h1 (a : FVec F S500000x64 .f32) (b : FVec F S300000x64 .f32) (src dst : IVec S1250000 32) : FVec F S800000x64 .f32 :=
  layer (rowScale (table a b) (invSqrtDeg src)) src dst
def h2 (a : FVec F S500000x64 .f32) (b : FVec F S300000x64 .f32) (src dst : IVec S1250000 32) : FVec F S800000x64 .f32 :=
  layer (rowScale (h1 a b src dst) (invSqrtDeg src)) src dst
def h3 (a : FVec F S500000x64 .f32) (b : FVec F S300000x64 .f32) (src dst : IVec S1250000 32) : FVec F S800000x64 .f32 :=
  layer (rowScale (h2 a b src dst) (invSqrtDeg src)) src dst

/-- The sum of the table and its three layers. -/
def total (a : FVec F S500000x64 .f32) (b : FVec F S300000x64 .f32) (src dst : IVec S1250000 32) : FVec F S800000x64 .f32 :=
  addf (addf (addf (table a b) (h1 a b src dst)) (h2 a b src dst)) (h3 a b src dst)

/-- The mean over the four tables, as the reference takes it: a quotient by four. -/
def mean (a : FVec F S500000x64 .f32) (b : FVec F S300000x64 .f32) (src dst : IVec S1250000 32) : FVec F S800000x64 .f32 :=
  Host.divf (total a b src dst) (broadcastInDim S800000x64 ![] bcast_S_S800000x64 (constant S_ .f32 0x40800000#32))

/-- The user rows and the item rows of the mean. -/
def users (a : FVec F S500000x64 .f32) (b : FVec F S300000x64 .f32) (src dst : IVec S1250000 32) : FVec F S500000x64 .f32 :=
  extractStridedSlice S500000x64 ![0, 0] (mean a b src dst) slices_S800000x64_S500000x64_0_0
def items (a : FVec F S500000x64 .f32) (b : FVec F S300000x64 .f32) (src dst : IVec S1250000 32) : FVec F S300000x64 .f32 :=
  extractStridedSlice S300000x64 ![500000, 0] (mean a b src dst) slices_S800000x64_S300000x64_500000_0

/-! ## The row scaling read at an entry -/

/-- `rowScale` at `(v, q)`: the entry times the normaliser's entry `v`. -/
theorem rowScale_apply (x : FVec F S800000x64 .f32) (nrm : FVec F S800000 .f32) (i : S800000x64.Idx) :
    rowScale x nrm i = FloatOps.mulf (x i) (nrm (ix1 (n := 800000) (i 0))) := by
  unfold rowScale mulf
  refine congrArg (FloatOps.mulf (x i)) ?_
  rw [broadcastInDim_apply _ _ _ i (ix2 (n0 := 800000) (n1 := 1) (i 0) 0) (fun a => by
    match a with
    | ⟨0, _⟩ => rfl
    | ⟨1, _⟩ => rfl)]
  exact broadcastInDim_apply _ _ _ _ (ix1 (n := 800000) (i 0)) (fun a => by
    match a with
    | ⟨0, _⟩ => rfl)

/-- The kernels' form of the row scaling: the normaliser kept as a column `[n, 1]`, read at `(v, 0)`. -/
def colScale (x : FVec F S800000x64 .f32) (col : FVec F S800000x1 .f32) : FVec F S800000x64 .f32 :=
  fun i => FloatOps.mulf (x i) (col (ix2 (n0 := 800000) (n1 := 1) (i 0) 0))

/-- A normaliser reshaped to a column scales the rows as the broadcast normaliser does. -/
theorem colScale_reshape (x : FVec F S800000x64 .f32) (nrm : FVec F S800000 .f32) (h : S800000.ShapeCasts S800000x1) :
    colScale x (shapeCast S800000x1 nrm h) = rowScale x nrm := by
  funext i
  rw [rowScale_apply]
  unfold colScale
  refine congrArg (FloatOps.mulf (x i)) ?_
  refine shapeCast_apply _ _ _ (ix1 (n := 800000) (i 0)) ?_
  rw [Shape.rowMajor_val_one, Shape.rowMajor_val_two]
  show (i 0).val = (i 0).val * 1 + 0
  omega

/-- The last kernel's form of the mean: every entry times the constant one quarter. -/
def quarter (x : FVec F S800000x64 .f32) : FVec F S800000x64 .f32 :=
  fun i => FloatOps.mulf (x i) (FloatOps.ofBits .f32 0x3E800000#32)

end Cert.Propagation

end
-- ==== Proof.Mean.lean ====
/-
  A quotient by four is a product with one quarter, on every extended real: the reference divides the accumulated
  table by `4.0`, the kernel multiplies it by `0.25`, and `x / 4 = x · (1/4)` holds at the infinities too, so the two
  means agree without any assumption on the table.
-/
import proofs.«423855_j86131274154844_1_alg».proof.Proof.Spec

noncomputable section

namespace Cert.Propagation

open Idealize.ShloMosaic Idealize.ShloMosaic.ValueIdx Cert.ReferenceIdeal Cert.ReferenceIdeal.Gen

/-- The word `0x40800000` denotes the real 4. -/
theorem word_four : Ideal.ofBits .f32 0x40800000#32 = ((4 : ℝ) : EReal) := by
  simp [Ideal.ofBits, Ideal.ieee, -EReal.coe_mul]; norm_num

/-- The word `0x3E800000` denotes the real 1/4. -/
theorem word_quarter : Ideal.ofBits .f32 0x3E800000#32 = ((1 / 4 : ℝ) : EReal) := by
  simp [Ideal.ofBits, Ideal.ieee, -EReal.coe_mul]; norm_num

/-- Scaling by one quarter is the host's quotient by the splat of four. -/
theorem quarter_eq_div (x : FVec Ideal S800000x64 .f32) :
    quarter x = Host.divf x (broadcastInDim S800000x64 ![] bcast_S_S800000x64 (constant S_ .f32 0x40800000#32)) := by
  funext i
  simp only [quarter, Host.divf, broadcastInDim, constant, Ideal.mulf_def, Ideal.hostDivf_def, Ideal.ofBits_def,
    word_four, word_quarter, Ideal.div_coe (by norm_num : (4 : ℝ) ≠ 0)]

end Cert.Propagation

end
-- ==== Proof.HostStretches.lean ====
/-
  The host operations of the idealized kernel's @main between its kernels, read as the specification's operations.
  Before the first kernel: the two degree normalisers (a scatter-add of ones, clamped below by one, raised to the
  power -1/2, kept as columns) and the stacked table. Between kernels, three times: the wrap of negative source
  ids, the gather of the scaled table's rows along the edges and the scatter-add of those rows onto the destinations.
  After the last kernel: the cut into user rows and item rows. Each is stated from ANY contents `X` of the buffers
  the stretch starts from, so that the run's boundary contents can be put in later; a buffer a stretch does not write
  keeps its contents.
-/
import proofs.«423855_j86131274154844_1_alg».proof.Proof.Gen.KernelIdeal.Launch
import proofs.«423855_j86131274154844_1_alg».proof.Proof.Spec
import Idealize.ShloMosaic.Lib.StableHlo.Run

set_option maxRecDepth 16384

noncomputable section

namespace Cert.KernelIdeal.Host

open Idealize.ShloMosaic Idealize.ShloMosaic.TcCoe Idealize.SL.Sem Idealize.ShloMosaic.StableHlo
open Cert.KernelIdeal Cert.KernelIdeal.Gen
open Cert.Propagation

variable {F : FTy → Type} [FloatOps F]
variable (X : Valuation τ sig (Elt F))

/-- The contents after the five stretches that precede the first kernel. -/
abbrev prologue : Valuation τ sig (Elt F) :=
  after hostOps0_4 (after hostOps0_3 (after hostOps0_2 (after hostOps0_1 (after hostOps0 X))))

/-- The stacked table. -/
theorem prologue_table : prologue X (Proc.devRef .tc main_v15)
    = table (F := F) (X (Proc.devRef .tc main_arg0)) (X (Proc.devRef .tc main_arg1)) := by
  dsimp only [prologue]
  after_results
  rfl

/-- The source normaliser, as a column. -/
theorem prologue_src : prologue X (Proc.devRef .tc main_v11)
    = shapeCast S800000x1 (invSqrtDeg (F := F) (X (Proc.devRef .tc main_arg2))) shapeCasts_S800000_S800000x1 := by
  dsimp only [prologue]
  after_results
  rfl

/-- The destination normaliser, as a column. -/
theorem prologue_dst : prologue X (Proc.devRef .tc main_v14)
    = shapeCast S800000x1 (invSqrtDeg (F := F) (X (Proc.devRef .tc main_arg3))) shapeCasts_S800000_S800000x1 := by
  dsimp only [prologue]
  after_results
  rfl

theorem prologue_arg2 : prologue X (Proc.devRef .tc main_arg2) = X (Proc.devRef .tc main_arg2) := by
  dsimp only [prologue]
  after_results

theorem prologue_arg3 : prologue X (Proc.devRef .tc main_arg3) = X (Proc.devRef .tc main_arg3) := by
  dsimp only [prologue]
  after_results

/-! ## The first gather and scatter-add -/

set_option maxHeartbeats 2000000 in
theorem aggregate1 : after hostOps1 X (Proc.devRef .tc main_v26)
    = aggregate (F := F) (X (Proc.devRef .tc main_v16)) (X (Proc.devRef .tc main_arg2)) (X (Proc.devRef .tc main_arg3)) := by
  after_results
  rfl

theorem keeps1_v15 : after hostOps1 X (Proc.devRef .tc main_v15) = X (Proc.devRef .tc main_v15) := by after_results
theorem keeps1_v11 : after hostOps1 X (Proc.devRef .tc main_v11) = X (Proc.devRef .tc main_v11) := by after_results
theorem keeps1_v14 : after hostOps1 X (Proc.devRef .tc main_v14) = X (Proc.devRef .tc main_v14) := by after_results
theorem keeps1_arg2 : after hostOps1 X (Proc.devRef .tc main_arg2) = X (Proc.devRef .tc main_arg2) := by after_results
theorem keeps1_arg3 : after hostOps1 X (Proc.devRef .tc main_arg3) = X (Proc.devRef .tc main_arg3) := by after_results

/-! ## The second -/

set_option maxHeartbeats 2000000 in
theorem aggregate3 : after hostOps3 X (Proc.devRef .tc main_v38)
    = aggregate (F := F) (X (Proc.devRef .tc main_v28)) (X (Proc.devRef .tc main_arg2)) (X (Proc.devRef .tc main_arg3)) := by
  after_results
  rfl

theorem keeps3_v27_1 : after hostOps3 X (Proc.devRef .tc main_v27_1) = X (Proc.devRef .tc main_v27_1) := by after_results
theorem keeps3_v11 : after hostOps3 X (Proc.devRef .tc main_v11) = X (Proc.devRef .tc main_v11) := by after_results
theorem keeps3_v14 : after hostOps3 X (Proc.devRef .tc main_v14) = X (Proc.devRef .tc main_v14) := by after_results
theorem keeps3_arg2 : after hostOps3 X (Proc.devRef .tc main_arg2) = X (Proc.devRef .tc main_arg2) := by after_results
theorem keeps3_arg3 : after hostOps3 X (Proc.devRef .tc main_arg3) = X (Proc.devRef .tc main_arg3) := by after_results

/-! ## The third -/

set_option maxHeartbeats 2000000 in
theorem aggregate5 : after hostOps5 X (Proc.devRef .tc main_v50)
    = aggregate (F := F) (X (Proc.devRef .tc main_v40)) (X (Proc.devRef .tc main_arg2)) (X (Proc.devRef .tc main_arg3)) := by
  after_results
  rfl

theorem keeps5_v39_1 : after hostOps5 X (Proc.devRef .tc main_v39_1) = X (Proc.devRef .tc main_v39_1) := by after_results
theorem keeps5_v14 : after hostOps5 X (Proc.devRef .tc main_v14) = X (Proc.devRef .tc main_v14) := by after_results

/-! ## The two cuts -/

theorem cut_users : after hostOps7 X (Proc.devRef .tc main_v53)
    = extractStridedSlice (α := F .f32) S500000x64 ![0, 0] (X (Proc.devRef .tc main_v52)) slices_S800000x64_S500000x64_0_0 := by
  after_results

theorem cut_items : after hostOps7 X (Proc.devRef .tc main_v54)
    = extractStridedSlice (α := F .f32) S300000x64 ![500000, 0] (X (Proc.devRef .tc main_v52)) slices_S800000x64_S300000x64_500000_0 := by
  after_results

end Cert.KernelIdeal.Host

end
-- ==== Proof.Scale0.lean ====
/-
  Region 0 (a row-scaling kernel over twenty blocks of 40000 rows): what its output array holds when the region is left.
  Block `t` of the output is the body's product of block `t` of the table with block `t` of the normaliser column
  broadcast along the features; the blocks are rows `40000 t … 40000 t + 39999` of the arrays, they tile the
  output, so the output is the table with row `v` scaled by the column's entry `(v, 0)`.
-/
import proofs.«423855_j86131274154844_1_alg».proof.Proof.Gen.KernelIdeal.Frame
import proofs.«423855_j86131274154844_1_alg».proof.Proof.Spec
import Idealize.ShloMosaic.Lib.Pipeline.Value
import Idealize.ShloMosaic.Lib.ValueIdx
import Idealize.ShloMosaic.Lib.Tactic

set_option maxRecDepth 16384

noncomputable section

namespace Cert.KernelIdeal.Scale0

open Idealize.ShloMosaic Idealize.ShloMosaic.TcCoe Idealize.ShloMosaic.ValueIdx Idealize.SL.Sem
open Idealize.ShloMosaic.Pipeline (Dat)
open Cert.KernelIdeal Cert.KernelIdeal.Gen

variable {F : FTy → Type} [FloatOps F]
variable (V : (c : Dev nD) → (b : Ref sig .tc) → Buf (Elt F) ((c : Thread nD τ).loc b))

theorem origin : (![0, 0] : Fin 2 → Nat) = fun _ => 0 := funext fun a => by fin_cases a <;> rfl

/-- The body's product at an entry of the block: the table block's entry times the column block's entry of that row. -/
theorem product_apply (x0 : Vec F S40000x64 .f32) (x1 : Vec F S40000x1 .f32) (j : S40000x64.Idx) :
    k0_pay1 x0 x1 j = FloatOps.mulf (x0 j) (x1 (ix2 (n0 := 40000) (n1 := 1) (j 0) 0)) := by
  unfold k0_pay1
  show FloatOps.mulf (shapeCast S40000x64 x0 _ j) (broadcastTo S40000x64 (shapeCast S40000x1 x1 _) _ j) = _
  rw [shapeCast_self, shapeCast_self]
  refine congrArg (FloatOps.mulf (x0 j)) (broadcastTo_apply _ _ _ _ (fun a => ?_))
  match a with
  | ⟨0, _⟩ => rfl
  | ⟨1, _⟩ => rfl

/-- The three windows move together: at point `t` each is at block row `t`, block column 0. -/
theorem block_index : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the row-scaled table. -/
theorem flushed_eq (c : Dev nD) (t : Fin cfg0.N) :
    (dat0 V c).flushed 2 t = ((cfg0.win 2).blk t).view.read (Elt F)
      (Cert.Propagation.colScale (V c main_v15) (V c main_v11)) := by
  show (cfg0.win 2).cut (grid0.coords t) ((dat0 V c).after 2 t) = _
  rw [after0_2]
  unfold out0_2
  rw [View.canon_unit_zero origin]
  simp only [View.ld_unit_zero (S := S40000x64) origin, View.ld_unit_zero (S := S40000x1) origin]
  obtain ⟨e0, e1, e2, e3, e4, e5⟩ := block_index t
  funext j
  refine (product_apply (F := F) (iblk0 V c 0 t) (iblk0 V c 1 t) j).trans ?_
  show FloatOps.mulf (V c main_v15 (((cfg0.win 0).blk t).view.emb j)) (V c main_v11 (((cfg0.win 1).blk t).view.emb (ix2 (n0 := 40000) (n1 := 1) (j 0) 0)))
    = FloatOps.mulf (V c main_v15 (((cfg0.win 2).blk t).view.emb j)) (V c main_v11 (ix2 (n0 := 800000) (n1 := 1) ((((cfg0.win 2).blk t).view.emb j) 0) 0))
  have h0 : ((cfg0.win 0).blk t).view.emb j = ((cfg0.win 2).blk t).view.emb j := by
    funext a; apply Fin.ext
    match a with
    | ⟨0, _⟩ => show win0_0.index t (0 : Fin 2) * 40000 + 1 * (j 0).val = win0_2.index t (0 : Fin 2) * 40000 + 1 * (j 0).val; omega
    | ⟨1, _⟩ => show win0_0.index t (1 : Fin 2) * 64 + 1 * (j 1).val = win0_2.index t (1 : Fin 2) * 64 + 1 * (j 1).val; omega
  have h1 : ((cfg0.win 1).blk t).view.emb (ix2 (n0 := 40000) (n1 := 1) (j 0) 0) = ix2 (n0 := 800000) (n1 := 1) ((((cfg0.win 2).blk t).view.emb j) 0) 0 := by
    funext a; apply Fin.ext
    match a with
    | ⟨0, _⟩ => show win0_1.index t (0 : Fin 2) * 40000 + 1 * (j 0).val = win0_2.index t (0 : Fin 2) * 40000 + 1 * (j 0).val; omega
    | ⟨1, _⟩ => show win0_1.index t (1 : Fin 2) * 1 + 1 * 0 = 0; omega
  rw [h0, h1]

/-- An index of the output lies in point `t`'s block iff each coordinate lies in the block's range on its axis. -/
theorem mem_block (t : Fin cfg0.N) (i : S800000x64.Idx) :
    i ∈ ((cfg0.win 2).blk t).view.set ↔ ∀ a : Fin 2, win0_2.index t a * S40000x64.size a ≤ (i a).val ∧ (i a).val < win0_2.index t a * S40000x64.size a + S40000x64.size a := by
  show i ∈ ((View.whole main_v16).slice (win0_2.rect t)).set ↔ _
  rw [View.set_slice_whole, Rect.mem_set_unit]
  exact Iff.rfl

/-- Row `v` lies in the block of point `v / 40000`: the twenty blocks tile the output. -/
theorem covered (i : S800000x64.Idx) : ∃ t : Fin cfg0.N, (cfg0.win 2).flush t = true ∧ i ∈ ((cfg0.win 2).blk t).view.set := by
  have hi0 : (i 0).val < 800000 := (i 0).isLt
  have hi1 : (i 1).val < 64 := (i 1).isLt
  have hN : cfg0.N = 20 := N_0
  refine ⟨⟨(i 0).val / 40000, by rw [hN]; omega⟩, flush0_2 _, ?_⟩
  rw [mem_block]
  obtain ⟨-, -, -, -, e4, e5⟩ := block_index ⟨(i 0).val / 40000, by rw [hN]; omega⟩
  intro a
  match a with
  | ⟨0, _⟩ => show win0_2.index _ (0 : Fin 2) * 40000 ≤ (i 0).val ∧ (i 0).val < win0_2.index _ (0 : Fin 2) * 40000 + 40000; rw [e4]; show (i 0).val / 40000 * 40000 ≤ (i 0).val ∧ (i 0).val < (i 0).val / 40000 * 40000 + 40000; omega
  | ⟨1, _⟩ => show win0_2.index _ (1 : Fin 2) * 64 ≤ (i 1).val ∧ (i 1).val < win0_2.index _ (1 : Fin 2) * 64 + 64; rw [e5]; omega

/-- The output array when the region is left: the table it read, row `v` scaled by the column's entry `(v, 0)`. -/
theorem out_eq (c : Dev nD) :
    (dat0 V c).arrAt 2 cfg0.N = Cert.Propagation.colScale (V c main_v15) (V c main_v11) :=
  (dat0 V c).arrAt_eq_of_cover 2 _ (fun t _ => flushed_eq V c t) covered

end Cert.KernelIdeal.Scale0

end
-- ==== Proof.Scale2.lean ====
/-
  Region 2 (a row-scaling kernel over twenty blocks of 40000 rows): what its output array holds when the region is left.
  Block `t` of the output is the body's product of block `t` of the table with block `t` of the normaliser column
  broadcast along the features; the blocks are rows `40000 t … 40000 t + 39999` of the arrays, they tile the
  output, so the output is the table with row `v` scaled by the column's entry `(v, 0)`.
-/
import proofs.«423855_j86131274154844_1_alg».proof.Proof.Gen.KernelIdeal.Frame
import proofs.«423855_j86131274154844_1_alg».proof.Proof.Spec
import Idealize.ShloMosaic.Lib.Pipeline.Value
import Idealize.ShloMosaic.Lib.ValueIdx
import Idealize.ShloMosaic.Lib.Tactic

set_option maxRecDepth 16384

noncomputable section

namespace Cert.KernelIdeal.Scale2

open Idealize.ShloMosaic Idealize.ShloMosaic.TcCoe Idealize.ShloMosaic.ValueIdx Idealize.SL.Sem
open Idealize.ShloMosaic.Pipeline (Dat)
open Cert.KernelIdeal Cert.KernelIdeal.Gen

variable {F : FTy → Type} [FloatOps F]
variable (V : (c : Dev nD) → (b : Ref sig .tc) → Buf (Elt F) ((c : Thread nD τ).loc b))

theorem origin : (![0, 0] : Fin 2 → Nat) = fun _ => 0 := funext fun a => by fin_cases a <;> rfl

/-- The body's product at an entry of the block: the table block's entry times the column block's entry of that row. -/
theorem product_apply (x0 : Vec F S40000x64 .f32) (x1 : Vec F S40000x1 .f32) (j : S40000x64.Idx) :
    k2_pay1 x0 x1 j = FloatOps.mulf (x0 j) (x1 (ix2 (n0 := 40000) (n1 := 1) (j 0) 0)) := by
  unfold k2_pay1
  show FloatOps.mulf (shapeCast S40000x64 x0 _ j) (broadcastTo S40000x64 (shapeCast S40000x1 x1 _) _ j) = _
  rw [shapeCast_self, shapeCast_self]
  refine congrArg (FloatOps.mulf (x0 j)) (broadcastTo_apply _ _ _ _ (fun a => ?_))
  match a with
  | ⟨0, _⟩ => rfl
  | ⟨1, _⟩ => rfl

/-- The three windows move together: at point `t` each is at block row `t`, block column 0. -/
theorem block_index : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the row-scaled table. -/
theorem flushed_eq (c : Dev nD) (t : Fin cfg2.N) :
    (dat2 V c).flushed 2 t = ((cfg2.win 2).blk t).view.read (Elt F)
      (Cert.Propagation.colScale (V c main_v27_0) (V c main_v11)) := by
  show (cfg2.win 2).cut (grid2.coords t) ((dat2 V c).after 2 t) = _
  rw [after2_2]
  unfold out2_2
  rw [View.canon_unit_zero origin]
  simp only [View.ld_unit_zero (S := S40000x64) origin, View.ld_unit_zero (S := S40000x1) origin]
  obtain ⟨e0, e1, e2, e3, e4, e5⟩ := block_index t
  funext j
  refine (product_apply (F := F) (iblk2 V c 0 t) (iblk2 V c 1 t) j).trans ?_
  show FloatOps.mulf (V c main_v27_0 (((cfg2.win 0).blk t).view.emb j)) (V c main_v11 (((cfg2.win 1).blk t).view.emb (ix2 (n0 := 40000) (n1 := 1) (j 0) 0)))
    = FloatOps.mulf (V c main_v27_0 (((cfg2.win 2).blk t).view.emb j)) (V c main_v11 (ix2 (n0 := 800000) (n1 := 1) ((((cfg2.win 2).blk t).view.emb j) 0) 0))
  have h0 : ((cfg2.win 0).blk t).view.emb j = ((cfg2.win 2).blk t).view.emb j := by
    funext a; apply Fin.ext
    match a with
    | ⟨0, _⟩ => show win2_0.index t (0 : Fin 2) * 40000 + 1 * (j 0).val = win2_2.index t (0 : Fin 2) * 40000 + 1 * (j 0).val; omega
    | ⟨1, _⟩ => show win2_0.index t (1 : Fin 2) * 64 + 1 * (j 1).val = win2_2.index t (1 : Fin 2) * 64 + 1 * (j 1).val; omega
  have h1 : ((cfg2.win 1).blk t).view.emb (ix2 (n0 := 40000) (n1 := 1) (j 0) 0) = ix2 (n0 := 800000) (n1 := 1) ((((cfg2.win 2).blk t).view.emb j) 0) 0 := by
    funext a; apply Fin.ext
    match a with
    | ⟨0, _⟩ => show win2_1.index t (0 : Fin 2) * 40000 + 1 * (j 0).val = win2_2.index t (0 : Fin 2) * 40000 + 1 * (j 0).val; omega
    | ⟨1, _⟩ => show win2_1.index t (1 : Fin 2) * 1 + 1 * 0 = 0; omega
  rw [h0, h1]

/-- An index of the output lies in point `t`'s block iff each coordinate lies in the block's range on its axis. -/
theorem mem_block (t : Fin cfg2.N) (i : S800000x64.Idx) :
    i ∈ ((cfg2.win 2).blk t).view.set ↔ ∀ a : Fin 2, win2_2.index t a * S40000x64.size a ≤ (i a).val ∧ (i a).val < win2_2.index t a * S40000x64.size a + S40000x64.size a := by
  show i ∈ ((View.whole main_v28).slice (win2_2.rect t)).set ↔ _
  rw [View.set_slice_whole, Rect.mem_set_unit]
  exact Iff.rfl

/-- Row `v` lies in the block of point `v / 40000`: the twenty blocks tile the output. -/
theorem covered (i : S800000x64.Idx) : ∃ t : Fin cfg2.N, (cfg2.win 2).flush t = true ∧ i ∈ ((cfg2.win 2).blk t).view.set := by
  have hi0 : (i 0).val < 800000 := (i 0).isLt
  have hi1 : (i 1).val < 64 := (i 1).isLt
  have hN : cfg2.N = 20 := N_2
  refine ⟨⟨(i 0).val / 40000, by rw [hN]; omega⟩, flush2_2 _, ?_⟩
  rw [mem_block]
  obtain ⟨-, -, -, -, e4, e5⟩ := block_index ⟨(i 0).val / 40000, by rw [hN]; omega⟩
  intro a
  match a with
  | ⟨0, _⟩ => show win2_2.index _ (0 : Fin 2) * 40000 ≤ (i 0).val ∧ (i 0).val < win2_2.index _ (0 : Fin 2) * 40000 + 40000; rw [e4]; show (i 0).val / 40000 * 40000 ≤ (i 0).val ∧ (i 0).val < (i 0).val / 40000 * 40000 + 40000; omega
  | ⟨1, _⟩ => show win2_2.index _ (1 : Fin 2) * 64 ≤ (i 1).val ∧ (i 1).val < win2_2.index _ (1 : Fin 2) * 64 + 64; rw [e5]; omega

/-- The output array when the region is left: the table it read, row `v` scaled by the column's entry `(v, 0)`. -/
theorem out_eq (c : Dev nD) :
    (dat2 V c).arrAt 2 cfg2.N = Cert.Propagation.colScale (V c main_v27_0) (V c main_v11) :=
  (dat2 V c).arrAt_eq_of_cover 2 _ (fun t _ => flushed_eq V c t) covered

end Cert.KernelIdeal.Scale2

end
-- ==== Proof.Scale4.lean ====
/-
  Region 4 (a row-scaling kernel over twenty blocks of 40000 rows): what its output array holds when the region is left.
  Block `t` of the output is the body's product of block `t` of the table with block `t` of the normaliser column
  broadcast along the features; the blocks are rows `40000 t … 40000 t + 39999` of the arrays, they tile the
  output, so the output is the table with row `v` scaled by the column's entry `(v, 0)`.
-/
import proofs.«423855_j86131274154844_1_alg».proof.Proof.Gen.KernelIdeal.Frame
import proofs.«423855_j86131274154844_1_alg».proof.Proof.Spec
import Idealize.ShloMosaic.Lib.Pipeline.Value
import Idealize.ShloMosaic.Lib.ValueIdx
import Idealize.ShloMosaic.Lib.Tactic

set_option maxRecDepth 16384

noncomputable section

namespace Cert.KernelIdeal.Scale4

open Idealize.ShloMosaic Idealize.ShloMosaic.TcCoe Idealize.ShloMosaic.ValueIdx Idealize.SL.Sem
open Idealize.ShloMosaic.Pipeline (Dat)
open Cert.KernelIdeal Cert.KernelIdeal.Gen

variable {F : FTy → Type} [FloatOps F]
variable (V : (c : Dev nD) → (b : Ref sig .tc) → Buf (Elt F) ((c : Thread nD τ).loc b))

theorem origin : (![0, 0] : Fin 2 → Nat) = fun _ => 0 := funext fun a => by fin_cases a <;> rfl

/-- The body's product at an entry of the block: the table block's entry times the column block's entry of that row. -/
theorem product_apply (x0 : Vec F S40000x64 .f32) (x1 : Vec F S40000x1 .f32) (j : S40000x64.Idx) :
    k4_pay1 x0 x1 j = FloatOps.mulf (x0 j) (x1 (ix2 (n0 := 40000) (n1 := 1) (j 0) 0)) := by
  unfold k4_pay1
  show FloatOps.mulf (shapeCast S40000x64 x0 _ j) (broadcastTo S40000x64 (shapeCast S40000x1 x1 _) _ j) = _
  rw [shapeCast_self, shapeCast_self]
  refine congrArg (FloatOps.mulf (x0 j)) (broadcastTo_apply _ _ _ _ (fun a => ?_))
  match a with
  | ⟨0, _⟩ => rfl
  | ⟨1, _⟩ => rfl

/-- The three windows move together: at point `t` each is at block row `t`, block column 0. -/
theorem block_index : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

/-- What point `t` writes back is block `t` of the row-scaled table. -/
theorem flushed_eq (c : Dev nD) (t : Fin cfg4.N) :
    (dat4 V c).flushed 2 t = ((cfg4.win 2).blk t).view.read (Elt F)
      (Cert.Propagation.colScale (V c main_v39_0) (V c main_v11)) := by
  show (cfg4.win 2).cut (grid4.coords t) ((dat4 V c).after 2 t) = _
  rw [after4_2]
  unfold out4_2
  rw [View.canon_unit_zero origin]
  simp only [View.ld_unit_zero (S := S40000x64) origin, View.ld_unit_zero (S := S40000x1) origin]
  obtain ⟨e0, e1, e2, e3, e4, e5⟩ := block_index t
  funext j
  refine (product_apply (F := F) (iblk4 V c 0 t) (iblk4 V c 1 t) j).trans ?_
  show FloatOps.mulf (V c main_v39_0 (((cfg4.win 0).blk t).view.emb j)) (V c main_v11 (((cfg4.win 1).blk t).view.emb (ix2 (n0 := 40000) (n1 := 1) (j 0) 0)))
    = FloatOps.mulf (V c main_v39_0 (((cfg4.win 2).blk t).view.emb j)) (V c main_v11 (ix2 (n0 := 800000) (n1 := 1) ((((cfg4.win 2).blk t).view.emb j) 0) 0))
  have h0 : ((cfg4.win 0).blk t).view.emb j = ((cfg4.win 2).blk t).view.emb j := by
    funext a; apply Fin.ext
    match a with
    | ⟨0, _⟩ => show win4_0.index t (0 : Fin 2) * 40000 + 1 * (j 0).val = win4_2.index t (0 : Fin 2) * 40000 + 1 * (j 0).val; omega
    | ⟨1, _⟩ => show win4_0.index t (1 : Fin 2) * 64 + 1 * (j 1).val = win4_2.index t (1 : Fin 2) * 64 + 1 * (j 1).val; omega
  have h1 : ((cfg4.win 1).blk t).view.emb (ix2 (n0 := 40000) (n1 := 1) (j 0) 0) = ix2 (n0 := 800000) (n1 := 1) ((((cfg4.win 2).blk t).view.emb j) 0) 0 := by
    funext a; apply Fin.ext
    match a with
    | ⟨0, _⟩ => show win4_1.index t (0 : Fin 2) * 40000 + 1 * (j 0).val = win4_2.index t (0 : Fin 2) * 40000 + 1 * (j 0).val; omega
    | ⟨1, _⟩ => show win4_1.index t (1 : Fin 2) * 1 + 1 * 0 = 0; omega
  rw [h0, h1]

/-- An index of the output lies in point `t`'s block iff each coordinate lies in the block's range on its axis. -/
theorem mem_block (t : Fin cfg4.N) (i : S800000x64.Idx) :
    i ∈ ((cfg4.win 2).blk t).view.set ↔ ∀ a : Fin 2, win4_2.index t a * S40000x64.size a ≤ (i a).val ∧ (i a).val < win4_2.index t a * S40000x64.size a + S40000x64.size a := by
  show i ∈ ((View.whole main_v40).slice (win4_2.rect t)).set ↔ _
  rw [View.set_slice_whole, Rect.mem_set_unit]
  exact Iff.rfl

/-- Row `v` lies in the block of point `v / 40000`: the twenty blocks tile the output. -/
theorem covered (i : S800000x64.Idx) : ∃ t : Fin cfg4.N, (cfg4.win 2).flush t = true ∧ i ∈ ((cfg4.win 2).blk t).view.set := by
  have hi0 : (i 0).val < 800000 := (i 0).isLt
  have hi1 : (i 1).val < 64 := (i 1).isLt
  have hN : cfg4.N = 20 := N_4
  refine ⟨⟨(i 0).val / 40000, by rw [hN]; omega⟩, flush4_2 _, ?_⟩
  rw [mem_block]
  obtain ⟨-, -, -, -, e4, e5⟩ := block_index ⟨(i 0).val / 40000, by rw [hN]; omega⟩
  intro a
  match a with
  | ⟨0, _⟩ => show win4_2.index _ (0 : Fin 2) * 40000 ≤ (i 0).val ∧ (i 0).val < win4_2.index _ (0 : Fin 2) * 40000 + 40000; rw [e4]; show (i 0).val / 40000 * 40000 ≤ (i 0).val ∧ (i 0).val < (i 0).val / 40000 * 40000 + 40000; omega
  | ⟨1, _⟩ => show win4_2.index _ (1 : Fin 2) * 64 ≤ (i 1).val ∧ (i 1).val < win4_2.index _ (1 : Fin 2) * 64 + 64; rw [e5]; omega

/-- The output array when the region is left: the table it read, row `v` scaled by the column's entry `(v, 0)`. -/
theorem out_eq (c : Dev nD) :
    (dat4 V c).arrAt 2 cfg4.N = Cert.Propagation.colScale (V c main_v39_0) (V c main_v11) :=
  (dat4 V c).arrAt_eq_of_cover 2 _ (fun t _ => flushed_eq V c t) covered

end Cert.KernelIdeal.Scale4

end
-- ==== Proof.ScaleAcc1.lean ====
/-
  Region 1 (the kernel that scales by the destination normaliser and accumulates, over fifty blocks of 16000 rows):
  what its two output arrays hold when the region is left. At block `t` the body multiplies the aggregate's block by the
  normaliser column's block broadcast along the features, stores that as the new table's block, and stores the
  running sum's block plus that product as the new sum's block. The blocks are rows `16000 t … 16000 t + 15999`
  of the arrays and tile both outputs: the new table is the aggregate with row `v` scaled by the column's entry
  `(v, 0)`, and the new sum is the old sum plus the new table.
-/
import proofs.«423855_j86131274154844_1_alg».proof.Proof.Gen.KernelIdeal.Frame
import proofs.«423855_j86131274154844_1_alg».proof.Proof.Spec
import Idealize.ShloMosaic.Lib.Pipeline.Value
import Idealize.ShloMosaic.Lib.ValueIdx
import Idealize.ShloMosaic.Lib.Tactic

set_option maxRecDepth 16384

noncomputable section

namespace Cert.KernelIdeal.ScaleAcc1

open Idealize.ShloMosaic Idealize.ShloMosaic.TcCoe Idealize.ShloMosaic.ValueIdx Idealize.SL.Sem
open Idealize.ShloMosaic.Pipeline (Dat)
open Cert.KernelIdeal Cert.KernelIdeal.Gen

variable {F : FTy → Type} [FloatOps F]
variable (V : (c : Dev nD) → (b : Ref sig .tc) → Buf (Elt F) ((c : Thread nD τ).loc b))

theorem origin : (![0, 0] : Fin 2 → Nat) = fun _ => 0 := funext fun a => by fin_cases a <;> rfl

/-- The body's product at an entry of the block: the aggregate block's entry times the column block's entry of that row. -/
theorem product_apply (x0 : Vec F S16000x64 .f32) (x1 : Vec F S16000x1 .f32) (j : S16000x64.Idx) :
    k1_pay1 x0 x1 j = FloatOps.mulf (x0 j) (x1 (ix2 (n0 := 16000) (n1 := 1) (j 0) 0)) := by
  unfold k1_pay1
  show FloatOps.mulf (shapeCast S16000x64 x0 _ j) (broadcastTo S16000x64 (shapeCast S16000x1 x1 _) _ j) = _
  rw [shapeCast_self, shapeCast_self]
  refine congrArg (FloatOps.mulf (x0 j)) (broadcastTo_apply _ _ _ _ (fun a => ?_))
  match a with
  | ⟨0, _⟩ => rfl
  | ⟨1, _⟩ => rfl

/-- The body's sum at an entry of the block: the running sum's entry plus the product there. -/
theorem sum_apply (x0 : Vec F S16000x64 .f32) (x1 : Vec F S16000x1 .f32) (x2 : Vec F S16000x64 .f32) (j : S16000x64.Idx) :
    k1_pay2 x0 x1 x2 j = FloatOps.addf (x2 j) (FloatOps.mulf (x0 j) (x1 (ix2 (n0 := 16000) (n1 := 1) (j 0) 0))) := by
  unfold k1_pay2
  show FloatOps.addf (shapeCast S16000x64 x2 _ j) (k1_pay1 x0 x1 j) = _
  rw [shapeCast_self, product_apply]

/-- The five windows move together: at point `t` each is at block row `t`, block column 0. -/
theorem block_index : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-- What point `t` writes back to the new table is block `t` of the row-scaled aggregate. -/
theorem flushed_table (c : Dev nD) (t : Fin cfg1.N) :
    (dat1 V c).flushed 3 t = ((cfg1.win 3).blk t).view.read (Elt F)
      (Cert.Propagation.colScale (V c main_v26) (V c main_v14)) := by
  show (cfg1.win 3).cut (grid1.coords t) ((dat1 V c).after 3 t) = _
  rw [after1_3]
  unfold out1_3
  rw [View.canon_unit_zero origin]
  simp only [View.ld_unit_zero (S := S16000x64) origin, View.ld_unit_zero (S := S16000x1) origin]
  obtain ⟨e0, e1, e2, e3, e4, e5, e6, e7, e8, e9⟩ := block_index t
  funext j
  refine (product_apply (F := F) (iblk1 V c 0 t) (iblk1 V c 1 t) j).trans ?_
  show FloatOps.mulf (V c main_v26 (((cfg1.win 0).blk t).view.emb j)) (V c main_v14 (((cfg1.win 1).blk t).view.emb (ix2 (n0 := 16000) (n1 := 1) (j 0) 0)))
    = FloatOps.mulf (V c main_v26 (((cfg1.win 3).blk t).view.emb j)) (V c main_v14 (ix2 (n0 := 800000) (n1 := 1) ((((cfg1.win 3).blk t).view.emb j) 0) 0))
  have h0 : ((cfg1.win 0).blk t).view.emb j = ((cfg1.win 3).blk t).view.emb j := by
    funext a; apply Fin.ext
    match a with
    | ⟨0, _⟩ => show win1_0.index t (0 : Fin 2) * 16000 + 1 * (j 0).val = win1_3.index t (0 : Fin 2) * 16000 + 1 * (j 0).val; omega
    | ⟨1, _⟩ => show win1_0.index t (1 : Fin 2) * 64 + 1 * (j 1).val = win1_3.index t (1 : Fin 2) * 64 + 1 * (j 1).val; omega
  have h1 : ((cfg1.win 1).blk t).view.emb (ix2 (n0 := 16000) (n1 := 1) (j 0) 0) = ix2 (n0 := 800000) (n1 := 1) ((((cfg1.win 3).blk t).view.emb j) 0) 0 := by
    funext a; apply Fin.ext
    match a with
    | ⟨0, _⟩ => show win1_1.index t (0 : Fin 2) * 16000 + 1 * (j 0).val = win1_3.index t (0 : Fin 2) * 16000 + 1 * (j 0).val; omega
    | ⟨1, _⟩ => show win1_1.index t (1 : Fin 2) * 1 + 1 * 0 = 0; omega
  rw [h0, h1]

/-- What point `t` writes back to the new sum is block `t` of the old sum plus the row-scaled aggregate. -/
theorem flushed_sum (c : Dev nD) (t : Fin cfg1.N) :
    (dat1 V c).flushed 4 t = ((cfg1.win 4).blk t).view.read (Elt F)
      (addf (V c main_v15) (Cert.Propagation.colScale (V c main_v26) (V c main_v14))) := by
  show (cfg1.win 4).cut (grid1.coords t) ((dat1 V c).after 4 t) = _
  rw [after1_4]
  unfold out1_4
  rw [View.canon_unit_zero origin]
  simp only [View.ld_unit_zero (S := S16000x64) origin, View.ld_unit_zero (S := S16000x1) origin]
  obtain ⟨e0, e1, e2, e3, e4, e5, e6, e7, e8, e9⟩ := block_index t
  funext j
  refine (sum_apply (F := F) (iblk1 V c 0 t) (iblk1 V c 1 t) (iblk1 V c 2 t) j).trans ?_
  show FloatOps.addf (V c main_v15 (((cfg1.win 2).blk t).view.emb j))
      (FloatOps.mulf (V c main_v26 (((cfg1.win 0).blk t).view.emb j)) (V c main_v14 (((cfg1.win 1).blk t).view.emb (ix2 (n0 := 16000) (n1 := 1) (j 0) 0))))
    = FloatOps.addf (V c main_v15 (((cfg1.win 4).blk t).view.emb j))
      (FloatOps.mulf (V c main_v26 (((cfg1.win 4).blk t).view.emb j)) (V c main_v14 (ix2 (n0 := 800000) (n1 := 1) ((((cfg1.win 4).blk t).view.emb j) 0) 0)))
  have h0 : ((cfg1.win 0).blk t).view.emb j = ((cfg1.win 4).blk t).view.emb j := by
    funext a; apply Fin.ext
    match a with
    | ⟨0, _⟩ => show win1_0.index t (0 : Fin 2) * 16000 + 1 * (j 0).val = win1_4.index t (0 : Fin 2) * 16000 + 1 * (j 0).val; omega
    | ⟨1, _⟩ => show win1_0.index t (1 : Fin 2) * 64 + 1 * (j 1).val = win1_4.index t (1 : Fin 2) * 64 + 1 * (j 1).val; omega
  have h2 : ((cfg1.win 2).blk t).view.emb j = ((cfg1.win 4).blk t).view.emb j := by
    funext a; apply Fin.ext
    match a with
    | ⟨0, _⟩ => show win1_2.index t (0 : Fin 2) * 16000 + 1 * (j 0).val = win1_4.index t (0 : Fin 2) * 16000 + 1 * (j 0).val; omega
    | ⟨1, _⟩ => show win1_2.index t (1 : Fin 2) * 64 + 1 * (j 1).val = win1_4.index t (1 : Fin 2) * 64 + 1 * (j 1).val; omega
  have h1 : ((cfg1.win 1).blk t).view.emb (ix2 (n0 := 16000) (n1 := 1) (j 0) 0) = ix2 (n0 := 800000) (n1 := 1) ((((cfg1.win 4).blk t).view.emb j) 0) 0 := by
    funext a; apply Fin.ext
    match a with
    | ⟨0, _⟩ => show win1_1.index t (0 : Fin 2) * 16000 + 1 * (j 0).val = win1_4.index t (0 : Fin 2) * 16000 + 1 * (j 0).val; omega
    | ⟨1, _⟩ => show win1_1.index t (1 : Fin 2) * 1 + 1 * 0 = 0; omega
  rw [h0, h1, h2]

/-- An index lies in point `t`'s block of the new table iff each coordinate lies in the block's range on its axis. -/
theorem mem_block_table (t : Fin cfg1.N) (i : S800000x64.Idx) :
    i ∈ ((cfg1.win 3).blk t).view.set ↔ ∀ a : Fin 2, win1_3.index t a * S16000x64.size a ≤ (i a).val ∧ (i a).val < win1_3.index t a * S16000x64.size a + S16000x64.size a := by
  show i ∈ ((View.whole main_v27_0).slice (win1_3.rect t)).set ↔ _
  rw [View.set_slice_whole, Rect.mem_set_unit]
  exact Iff.rfl

/-- The same for the new sum. -/
theorem mem_block_sum (t : Fin cfg1.N) (i : S800000x64.Idx) :
    i ∈ ((cfg1.win 4).blk t).view.set ↔ ∀ a : Fin 2, win1_4.index t a * S16000x64.size a ≤ (i a).val ∧ (i a).val < win1_4.index t a * S16000x64.size a + S16000x64.size a := by
  show i ∈ ((View.whole main_v27_1).slice (win1_4.rect t)).set ↔ _
  rw [View.set_slice_whole, Rect.mem_set_unit]
  exact Iff.rfl

/-- Row `v` lies in the block of point `v / 16000`: the fifty blocks tile the new table. -/
theorem covered_table (i : S800000x64.Idx) : ∃ t : Fin cfg1.N, (cfg1.win 3).flush t = true ∧ i ∈ ((cfg1.win 3).blk t).view.set := by
  have hi0 : (i 0).val < 800000 := (i 0).isLt
  have hi1 : (i 1).val < 64 := (i 1).isLt
  have hN : cfg1.N = 50 := N_1
  refine ⟨⟨(i 0).val / 16000, by rw [hN]; omega⟩, flush1_3 _, ?_⟩
  rw [mem_block_table]
  obtain ⟨-, -, -, -, -, -, e6, e7, -, -⟩ := block_index ⟨(i 0).val / 16000, by rw [hN]; omega⟩
  intro a
  match a with
  | ⟨0, _⟩ => show win1_3.index _ (0 : Fin 2) * 16000 ≤ (i 0).val ∧ (i 0).val < win1_3.index _ (0 : Fin 2) * 16000 + 16000; rw [e6]; show (i 0).val / 16000 * 16000 ≤ (i 0).val ∧ (i 0).val < (i 0).val / 16000 * 16000 + 16000; omega
  | ⟨1, _⟩ => show win1_3.index _ (1 : Fin 2) * 64 ≤ (i 1).val ∧ (i 1).val < win1_3.index _ (1 : Fin 2) * 64 + 64; rw [e7]; omega

/-- And they tile the new sum. -/
theorem covered_sum (i : S800000x64.Idx) : ∃ t : Fin cfg1.N, (cfg1.win 4).flush t = true ∧ i ∈ ((cfg1.win 4).blk t).view.set := by
  have hi0 : (i 0).val < 800000 := (i 0).isLt
  have hi1 : (i 1).val < 64 := (i 1).isLt
  have hN : cfg1.N = 50 := N_1
  refine ⟨⟨(i 0).val / 16000, by rw [hN]; omega⟩, flush1_4 _, ?_⟩
  rw [mem_block_sum]
  obtain ⟨-, -, -, -, -, -, -, -, e8, e9⟩ := block_index ⟨(i 0).val / 16000, by rw [hN]; omega⟩
  intro a
  match a with
  | ⟨0, _⟩ => show win1_4.index _ (0 : Fin 2) * 16000 ≤ (i 0).val ∧ (i 0).val < win1_4.index _ (0 : Fin 2) * 16000 + 16000; rw [e8]; show (i 0).val / 16000 * 16000 ≤ (i 0).val ∧ (i 0).val < (i 0).val / 16000 * 16000 + 16000; omega
  | ⟨1, _⟩ => show win1_4.index _ (1 : Fin 2) * 64 ≤ (i 1).val ∧ (i 1).val < win1_4.index _ (1 : Fin 2) * 64 + 64; rw [e9]; omega

/-- The new table when the region is left: the aggregate, row `v` scaled by the column's entry `(v, 0)`. -/
theorem table_eq (c : Dev nD) :
    (dat1 V c).arrAt 3 cfg1.N = Cert.Propagation.colScale (V c main_v26) (V c main_v14) :=
  (dat1 V c).arrAt_eq_of_cover 3 _ (fun t _ => flushed_table V c t) covered_table

/-- The new sum when the region is left: the old sum plus the new table. -/
theorem sum_eq (c : Dev nD) :
    (dat1 V c).arrAt 4 cfg1.N = addf (V c main_v15) (Cert.Propagation.colScale (V c main_v26) (V c main_v14)) :=
  (dat1 V c).arrAt_eq_of_cover 4 _ (fun t _ => flushed_sum V c t) covered_sum

end Cert.KernelIdeal.ScaleAcc1

end
-- ==== Proof.ScaleAcc3.lean ====
/-
  Region 3 (the kernel that scales by the destination normaliser and accumulates, over fifty blocks of 16000 rows):
  what its two output arrays hold when the region is left. At block `t` the body multiplies the aggregate's block by the
  normaliser column's block broadcast along the features, stores that as the new table's block, and stores the
  running sum's block plus that product as the new sum's block. The blocks are rows `16000 t … 16000 t + 15999`
  of the arrays and tile both outputs: the new table is the aggregate with row `v` scaled by the column's entry
  `(v, 0)`, and the new sum is the old sum plus the new table.
-/
import proofs.«423855_j86131274154844_1_alg».proof.Proof.Gen.KernelIdeal.Frame
import proofs.«423855_j86131274154844_1_alg».proof.Proof.Spec
import Idealize.ShloMosaic.Lib.Pipeline.Value
import Idealize.ShloMosaic.Lib.ValueIdx
import Idealize.ShloMosaic.Lib.Tactic

set_option maxRecDepth 16384

noncomputable section

namespace Cert.KernelIdeal.ScaleAcc3

open Idealize.ShloMosaic Idealize.ShloMosaic.TcCoe Idealize.ShloMosaic.ValueIdx Idealize.SL.Sem
open Idealize.ShloMosaic.Pipeline (Dat)
open Cert.KernelIdeal Cert.KernelIdeal.Gen

variable {F : FTy → Type} [FloatOps F]
variable (V : (c : Dev nD) → (b : Ref sig .tc) → Buf (Elt F) ((c : Thread nD τ).loc b))

theorem origin : (![0, 0] : Fin 2 → Nat) = fun _ => 0 := funext fun a => by fin_cases a <;> rfl

/-- The body's product at an entry of the block: the aggregate block's entry times the column block's entry of that row. -/
theorem product_apply (x0 : Vec F S16000x64 .f32) (x1 : Vec F S16000x1 .f32) (j : S16000x64.Idx) :
    k3_pay1 x0 x1 j = FloatOps.mulf (x0 j) (x1 (ix2 (n0 := 16000) (n1 := 1) (j 0) 0)) := by
  unfold k3_pay1
  show FloatOps.mulf (shapeCast S16000x64 x0 _ j) (broadcastTo S16000x64 (shapeCast S16000x1 x1 _) _ j) = _
  rw [shapeCast_self, shapeCast_self]
  refine congrArg (FloatOps.mulf (x0 j)) (broadcastTo_apply _ _ _ _ (fun a => ?_))
  match a with
  | ⟨0, _⟩ => rfl
  | ⟨1, _⟩ => rfl

/-- The body's sum at an entry of the block: the running sum's entry plus the product there. -/
theorem sum_apply (x0 : Vec F S16000x64 .f32) (x1 : Vec F S16000x1 .f32) (x2 : Vec F S16000x64 .f32) (j : S16000x64.Idx) :
    k3_pay2 x0 x1 x2 j = FloatOps.addf (x2 j) (FloatOps.mulf (x0 j) (x1 (ix2 (n0 := 16000) (n1 := 1) (j 0) 0))) := by
  unfold k3_pay2
  show FloatOps.addf (shapeCast S16000x64 x2 _ j) (k3_pay1 x0 x1 j) = _
  rw [shapeCast_self, product_apply]

/-- The five windows move together: at point `t` each is at block row `t`, block column 0. -/
theorem block_index : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0
    ∧ win3_4.index t (0 : Fin 2) = t.val ∧ win3_4.index t (1 : Fin 2) = 0 :=
  (by decide +kernel : ∀ t : Fin grid3.N, _)

/-- What point `t` writes back to the new table is block `t` of the row-scaled aggregate. -/
theorem flushed_table (c : Dev nD) (t : Fin cfg3.N) :
    (dat3 V c).flushed 3 t = ((cfg3.win 3).blk t).view.read (Elt F)
      (Cert.Propagation.colScale (V c main_v38) (V c main_v14)) := by
  show (cfg3.win 3).cut (grid3.coords t) ((dat3 V c).after 3 t) = _
  rw [after3_3]
  unfold out3_3
  rw [View.canon_unit_zero origin]
  simp only [View.ld_unit_zero (S := S16000x64) origin, View.ld_unit_zero (S := S16000x1) origin]
  obtain ⟨e0, e1, e2, e3, e4, e5, e6, e7, e8, e9⟩ := block_index t
  funext j
  refine (product_apply (F := F) (iblk3 V c 0 t) (iblk3 V c 1 t) j).trans ?_
  show FloatOps.mulf (V c main_v38 (((cfg3.win 0).blk t).view.emb j)) (V c main_v14 (((cfg3.win 1).blk t).view.emb (ix2 (n0 := 16000) (n1 := 1) (j 0) 0)))
    = FloatOps.mulf (V c main_v38 (((cfg3.win 3).blk t).view.emb j)) (V c main_v14 (ix2 (n0 := 800000) (n1 := 1) ((((cfg3.win 3).blk t).view.emb j) 0) 0))
  have h0 : ((cfg3.win 0).blk t).view.emb j = ((cfg3.win 3).blk t).view.emb j := by
    funext a; apply Fin.ext
    match a with
    | ⟨0, _⟩ => show win3_0.index t (0 : Fin 2) * 16000 + 1 * (j 0).val = win3_3.index t (0 : Fin 2) * 16000 + 1 * (j 0).val; omega
    | ⟨1, _⟩ => show win3_0.index t (1 : Fin 2) * 64 + 1 * (j 1).val = win3_3.index t (1 : Fin 2) * 64 + 1 * (j 1).val; omega
  have h1 : ((cfg3.win 1).blk t).view.emb (ix2 (n0 := 16000) (n1 := 1) (j 0) 0) = ix2 (n0 := 800000) (n1 := 1) ((((cfg3.win 3).blk t).view.emb j) 0) 0 := by
    funext a; apply Fin.ext
    match a with
    | ⟨0, _⟩ => show win3_1.index t (0 : Fin 2) * 16000 + 1 * (j 0).val = win3_3.index t (0 : Fin 2) * 16000 + 1 * (j 0).val; omega
    | ⟨1, _⟩ => show win3_1.index t (1 : Fin 2) * 1 + 1 * 0 = 0; omega
  rw [h0, h1]

/-- What point `t` writes back to the new sum is block `t` of the old sum plus the row-scaled aggregate. -/
theorem flushed_sum (c : Dev nD) (t : Fin cfg3.N) :
    (dat3 V c).flushed 4 t = ((cfg3.win 4).blk t).view.read (Elt F)
      (addf (V c main_v27_1) (Cert.Propagation.colScale (V c main_v38) (V c main_v14))) := by
  show (cfg3.win 4).cut (grid3.coords t) ((dat3 V c).after 4 t) = _
  rw [after3_4]
  unfold out3_4
  rw [View.canon_unit_zero origin]
  simp only [View.ld_unit_zero (S := S16000x64) origin, View.ld_unit_zero (S := S16000x1) origin]
  obtain ⟨e0, e1, e2, e3, e4, e5, e6, e7, e8, e9⟩ := block_index t
  funext j
  refine (sum_apply (F := F) (iblk3 V c 0 t) (iblk3 V c 1 t) (iblk3 V c 2 t) j).trans ?_
  show FloatOps.addf (V c main_v27_1 (((cfg3.win 2).blk t).view.emb j))
      (FloatOps.mulf (V c main_v38 (((cfg3.win 0).blk t).view.emb j)) (V c main_v14 (((cfg3.win 1).blk t).view.emb (ix2 (n0 := 16000) (n1 := 1) (j 0) 0))))
    = FloatOps.addf (V c main_v27_1 (((cfg3.win 4).blk t).view.emb j))
      (FloatOps.mulf (V c main_v38 (((cfg3.win 4).blk t).view.emb j)) (V c main_v14 (ix2 (n0 := 800000) (n1 := 1) ((((cfg3.win 4).blk t).view.emb j) 0) 0)))
  have h0 : ((cfg3.win 0).blk t).view.emb j = ((cfg3.win 4).blk t).view.emb j := by
    funext a; apply Fin.ext
    match a with
    | ⟨0, _⟩ => show win3_0.index t (0 : Fin 2) * 16000 + 1 * (j 0).val = win3_4.index t (0 : Fin 2) * 16000 + 1 * (j 0).val; omega
    | ⟨1, _⟩ => show win3_0.index t (1 : Fin 2) * 64 + 1 * (j 1).val = win3_4.index t (1 : Fin 2) * 64 + 1 * (j 1).val; omega
  have h2 : ((cfg3.win 2).blk t).view.emb j = ((cfg3.win 4).blk t).view.emb j := by
    funext a; apply Fin.ext
    match a with
    | ⟨0, _⟩ => show win3_2.index t (0 : Fin 2) * 16000 + 1 * (j 0).val = win3_4.index t (0 : Fin 2) * 16000 + 1 * (j 0).val; omega
    | ⟨1, _⟩ => show win3_2.index t (1 : Fin 2) * 64 + 1 * (j 1).val = win3_4.index t (1 : Fin 2) * 64 + 1 * (j 1).val; omega
  have h1 : ((cfg3.win 1).blk t).view.emb (ix2 (n0 := 16000) (n1 := 1) (j 0) 0) = ix2 (n0 := 800000) (n1 := 1) ((((cfg3.win 4).blk t).view.emb j) 0) 0 := by
    funext a; apply Fin.ext
    match a with
    | ⟨0, _⟩ => show win3_1.index t (0 : Fin 2) * 16000 + 1 * (j 0).val = win3_4.index t (0 : Fin 2) * 16000 + 1 * (j 0).val; omega
    | ⟨1, _⟩ => show win3_1.index t (1 : Fin 2) * 1 + 1 * 0 = 0; omega
  rw [h0, h1, h2]

/-- An index lies in point `t`'s block of the new table iff each coordinate lies in the block's range on its axis. -/
theorem mem_block_table (t : Fin cfg3.N) (i : S800000x64.Idx) :
    i ∈ ((cfg3.win 3).blk t).view.set ↔ ∀ a : Fin 2, win3_3.index t a * S16000x64.size a ≤ (i a).val ∧ (i a).val < win3_3.index t a * S16000x64.size a + S16000x64.size a := by
  show i ∈ ((View.whole main_v39_0).slice (win3_3.rect t)).set ↔ _
  rw [View.set_slice_whole, Rect.mem_set_unit]
  exact Iff.rfl

/-- The same for the new sum. -/
theorem mem_block_sum (t : Fin cfg3.N) (i : S800000x64.Idx) :
    i ∈ ((cfg3.win 4).blk t).view.set ↔ ∀ a : Fin 2, win3_4.index t a * S16000x64.size a ≤ (i a).val ∧ (i a).val < win3_4.index t a * S16000x64.size a + S16000x64.size a := by
  show i ∈ ((View.whole main_v39_1).slice (win3_4.rect t)).set ↔ _
  rw [View.set_slice_whole, Rect.mem_set_unit]
  exact Iff.rfl

/-- Row `v` lies in the block of point `v / 16000`: the fifty blocks tile the new table. -/
theorem covered_table (i : S800000x64.Idx) : ∃ t : Fin cfg3.N, (cfg3.win 3).flush t = true ∧ i ∈ ((cfg3.win 3).blk t).view.set := by
  have hi0 : (i 0).val < 800000 := (i 0).isLt
  have hi1 : (i 1).val < 64 := (i 1).isLt
  have hN : cfg3.N = 50 := N_3
  refine ⟨⟨(i 0).val / 16000, by rw [hN]; omega⟩, flush3_3 _, ?_⟩
  rw [mem_block_table]
  obtain ⟨-, -, -, -, -, -, e6, e7, -, -⟩ := block_index ⟨(i 0).val / 16000, by rw [hN]; omega⟩
  intro a
  match a with
  | ⟨0, _⟩ => show win3_3.index _ (0 : Fin 2) * 16000 ≤ (i 0).val ∧ (i 0).val < win3_3.index _ (0 : Fin 2) * 16000 + 16000; rw [e6]; show (i 0).val / 16000 * 16000 ≤ (i 0).val ∧ (i 0).val < (i 0).val / 16000 * 16000 + 16000; omega
  | ⟨1, _⟩ => show win3_3.index _ (1 : Fin 2) * 64 ≤ (i 1).val ∧ (i 1).val < win3_3.index _ (1 : Fin 2) * 64 + 64; rw [e7]; omega

/-- And they tile the new sum. -/
theorem covered_sum (i : S800000x64.Idx) : ∃ t : Fin cfg3.N, (cfg3.win 4).flush t = true ∧ i ∈ ((cfg3.win 4).blk t).view.set := by
  have hi0 : (i 0).val < 800000 := (i 0).isLt
  have hi1 : (i 1).val < 64 := (i 1).isLt
  have hN : cfg3.N = 50 := N_3
  refine ⟨⟨(i 0).val / 16000, by rw [hN]; omega⟩, flush3_4 _, ?_⟩
  rw [mem_block_sum]
  obtain ⟨-, -, -, -, -, -, -, -, e8, e9⟩ := block_index ⟨(i 0).val / 16000, by rw [hN]; omega⟩
  intro a
  match a with
  | ⟨0, _⟩ => show win3_4.index _ (0 : Fin 2) * 16000 ≤ (i 0).val ∧ (i 0).val < win3_4.index _ (0 : Fin 2) * 16000 + 16000; rw [e8]; show (i 0).val / 16000 * 16000 ≤ (i 0).val ∧ (i 0).val < (i 0).val / 16000 * 16000 + 16000; omega
  | ⟨1, _⟩ => show win3_4.index _ (1 : Fin 2) * 64 ≤ (i 1).val ∧ (i 1).val < win3_4.index _ (1 : Fin 2) * 64 + 64; rw [e9]; omega

/-- The new table when the region is left: the aggregate, row `v` scaled by the column's entry `(v, 0)`. -/
theorem table_eq (c : Dev nD) :
    (dat3 V c).arrAt 3 cfg3.N = Cert.Propagation.colScale (V c main_v38) (V c main_v14) :=
  (dat3 V c).arrAt_eq_of_cover 3 _ (fun t _ => flushed_table V c t) covered_table

/-- The new sum when the region is left: the old sum plus the new table. -/
theorem sum_eq (c : Dev nD) :
    (dat3 V c).arrAt 4 cfg3.N = addf (V c main_v27_1) (Cert.Propagation.colScale (V c main_v38) (V c main_v14)) :=
  (dat3 V c).arrAt_eq_of_cover 4 _ (fun t _ => flushed_sum V c t) covered_sum

end Cert.KernelIdeal.ScaleAcc3

end
-- ==== Proof.ScaleAcc5.lean ====
/-
  Region 5 (the kernel that scales by the destination normaliser and accumulates, over fifty blocks of 16000 rows):
  what its two output arrays hold when the region is left. At block `t` the body multiplies the aggregate's block by the
  normaliser column's block broadcast along the features, stores that as the new table's block, and stores the
  running sum's block plus that product as the new sum's block. The blocks are rows `16000 t … 16000 t + 15999`
  of the arrays and tile both outputs: the new table is the aggregate with row `v` scaled by the column's entry
  `(v, 0)`, and the new sum is the old sum plus the new table.
-/
import proofs.«423855_j86131274154844_1_alg».proof.Proof.Gen.KernelIdeal.Frame
import proofs.«423855_j86131274154844_1_alg».proof.Proof.Spec
import Idealize.ShloMosaic.Lib.Pipeline.Value
import Idealize.ShloMosaic.Lib.ValueIdx
import Idealize.ShloMosaic.Lib.Tactic

set_option maxRecDepth 16384

noncomputable section

namespace Cert.KernelIdeal.ScaleAcc5

open Idealize.ShloMosaic Idealize.ShloMosaic.TcCoe Idealize.ShloMosaic.ValueIdx Idealize.SL.Sem
open Idealize.ShloMosaic.Pipeline (Dat)
open Cert.KernelIdeal Cert.KernelIdeal.Gen

variable {F : FTy → Type} [FloatOps F]
variable (V : (c : Dev nD) → (b : Ref sig .tc) → Buf (Elt F) ((c : Thread nD τ).loc b))

theorem origin : (![0, 0] : Fin 2 → Nat) = fun _ => 0 := funext fun a => by fin_cases a <;> rfl

/-- The body's product at an entry of the block: the aggregate block's entry times the column block's entry of that row. -/
theorem product_apply (x0 : Vec F S16000x64 .f32) (x1 : Vec F S16000x1 .f32) (j : S16000x64.Idx) :
    k5_pay1 x0 x1 j = FloatOps.mulf (x0 j) (x1 (ix2 (n0 := 16000) (n1 := 1) (j 0) 0)) := by
  unfold k5_pay1
  show FloatOps.mulf (shapeCast S16000x64 x0 _ j) (broadcastTo S16000x64 (shapeCast S16000x1 x1 _) _ j) = _
  rw [shapeCast_self, shapeCast_self]
  refine congrArg (FloatOps.mulf (x0 j)) (broadcastTo_apply _ _ _ _ (fun a => ?_))
  match a with
  | ⟨0, _⟩ => rfl
  | ⟨1, _⟩ => rfl

/-- The body's sum at an entry of the block: the running sum's entry plus the product there. -/
theorem sum_apply (x0 : Vec F S16000x64 .f32) (x1 : Vec F S16000x1 .f32) (x2 : Vec F S16000x64 .f32) (j : S16000x64.Idx) :
    k5_pay2 x0 x1 x2 j = FloatOps.addf (x2 j) (FloatOps.mulf (x0 j) (x1 (ix2 (n0 := 16000) (n1 := 1) (j 0) 0))) := by
  unfold k5_pay2
  show FloatOps.addf (shapeCast S16000x64 x2 _ j) (k5_pay1 x0 x1 j) = _
  rw [shapeCast_self, product_apply]

/-- The five windows move together: at point `t` each is at block row `t`, block column 0. -/
theorem block_index : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = t.val ∧ win5_3.index t (1 : Fin 2) = 0
    ∧ win5_4.index t (0 : Fin 2) = t.val ∧ win5_4.index t (1 : Fin 2) = 0 :=
  (by decide +kernel : ∀ t : Fin grid5.N, _)

/-- What point `t` writes back to the new table is block `t` of the row-scaled aggregate. -/
theorem flushed_table (c : Dev nD) (t : Fin cfg5.N) :
    (dat5 V c).flushed 3 t = ((cfg5.win 3).blk t).view.read (Elt F)
      (Cert.Propagation.colScale (V c main_v50) (V c main_v14)) := by
  show (cfg5.win 3).cut (grid5.coords t) ((dat5 V c).after 3 t) = _
  rw [after5_3]
  unfold out5_3
  rw [View.canon_unit_zero origin]
  simp only [View.ld_unit_zero (S := S16000x64) origin, View.ld_unit_zero (S := S16000x1) origin]
  obtain ⟨e0, e1, e2, e3, e4, e5, e6, e7, e8, e9⟩ := block_index t
  funext j
  refine (product_apply (F := F) (iblk5 V c 0 t) (iblk5 V c 1 t) j).trans ?_
  show FloatOps.mulf (V c main_v50 (((cfg5.win 0).blk t).view.emb j)) (V c main_v14 (((cfg5.win 1).blk t).view.emb (ix2 (n0 := 16000) (n1 := 1) (j 0) 0)))
    = FloatOps.mulf (V c main_v50 (((cfg5.win 3).blk t).view.emb j)) (V c main_v14 (ix2 (n0 := 800000) (n1 := 1) ((((cfg5.win 3).blk t).view.emb j) 0) 0))
  have h0 : ((cfg5.win 0).blk t).view.emb j = ((cfg5.win 3).blk t).view.emb j := by
    funext a; apply Fin.ext
    match a with
    | ⟨0, _⟩ => show win5_0.index t (0 : Fin 2) * 16000 + 1 * (j 0).val = win5_3.index t (0 : Fin 2) * 16000 + 1 * (j 0).val; omega
    | ⟨1, _⟩ => show win5_0.index t (1 : Fin 2) * 64 + 1 * (j 1).val = win5_3.index t (1 : Fin 2) * 64 + 1 * (j 1).val; omega
  have h1 : ((cfg5.win 1).blk t).view.emb (ix2 (n0 := 16000) (n1 := 1) (j 0) 0) = ix2 (n0 := 800000) (n1 := 1) ((((cfg5.win 3).blk t).view.emb j) 0) 0 := by
    funext a; apply Fin.ext
    match a with
    | ⟨0, _⟩ => show win5_1.index t (0 : Fin 2) * 16000 + 1 * (j 0).val = win5_3.index t (0 : Fin 2) * 16000 + 1 * (j 0).val; omega
    | ⟨1, _⟩ => show win5_1.index t (1 : Fin 2) * 1 + 1 * 0 = 0; omega
  rw [h0, h1]

/-- What point `t` writes back to the new sum is block `t` of the old sum plus the row-scaled aggregate. -/
theorem flushed_sum (c : Dev nD) (t : Fin cfg5.N) :
    (dat5 V c).flushed 4 t = ((cfg5.win 4).blk t).view.read (Elt F)
      (addf (V c main_v39_1) (Cert.Propagation.colScale (V c main_v50) (V c main_v14))) := by
  show (cfg5.win 4).cut (grid5.coords t) ((dat5 V c).after 4 t) = _
  rw [after5_4]
  unfold out5_4
  rw [View.canon_unit_zero origin]
  simp only [View.ld_unit_zero (S := S16000x64) origin, View.ld_unit_zero (S := S16000x1) origin]
  obtain ⟨e0, e1, e2, e3, e4, e5, e6, e7, e8, e9⟩ := block_index t
  funext j
  refine (sum_apply (F := F) (iblk5 V c 0 t) (iblk5 V c 1 t) (iblk5 V c 2 t) j).trans ?_
  show FloatOps.addf (V c main_v39_1 (((cfg5.win 2).blk t).view.emb j))
      (FloatOps.mulf (V c main_v50 (((cfg5.win 0).blk t).view.emb j)) (V c main_v14 (((cfg5.win 1).blk t).view.emb (ix2 (n0 := 16000) (n1 := 1) (j 0) 0))))
    = FloatOps.addf (V c main_v39_1 (((cfg5.win 4).blk t).view.emb j))
      (FloatOps.mulf (V c main_v50 (((cfg5.win 4).blk t).view.emb j)) (V c main_v14 (ix2 (n0 := 800000) (n1 := 1) ((((cfg5.win 4).blk t).view.emb j) 0) 0)))
  have h0 : ((cfg5.win 0).blk t).view.emb j = ((cfg5.win 4).blk t).view.emb j := by
    funext a; apply Fin.ext
    match a with
    | ⟨0, _⟩ => show win5_0.index t (0 : Fin 2) * 16000 + 1 * (j 0).val = win5_4.index t (0 : Fin 2) * 16000 + 1 * (j 0).val; omega
    | ⟨1, _⟩ => show win5_0.index t (1 : Fin 2) * 64 + 1 * (j 1).val = win5_4.index t (1 : Fin 2) * 64 + 1 * (j 1).val; omega
  have h2 : ((cfg5.win 2).blk t).view.emb j = ((cfg5.win 4).blk t).view.emb j := by
    funext a; apply Fin.ext
    match a with
    | ⟨0, _⟩ => show win5_2.index t (0 : Fin 2) * 16000 + 1 * (j 0).val = win5_4.index t (0 : Fin 2) * 16000 + 1 * (j 0).val; omega
    | ⟨1, _⟩ => show win5_2.index t (1 : Fin 2) * 64 + 1 * (j 1).val = win5_4.index t (1 : Fin 2) * 64 + 1 * (j 1).val; omega
  have h1 : ((cfg5.win 1).blk t).view.emb (ix2 (n0 := 16000) (n1 := 1) (j 0) 0) = ix2 (n0 := 800000) (n1 := 1) ((((cfg5.win 4).blk t).view.emb j) 0) 0 := by
    funext a; apply Fin.ext
    match a with
    | ⟨0, _⟩ => show win5_1.index t (0 : Fin 2) * 16000 + 1 * (j 0).val = win5_4.index t (0 : Fin 2) * 16000 + 1 * (j 0).val; omega
    | ⟨1, _⟩ => show win5_1.index t (1 : Fin 2) * 1 + 1 * 0 = 0; omega
  rw [h0, h1, h2]

/-- An index lies in point `t`'s block of the new table iff each coordinate lies in the block's range on its axis. -/
theorem mem_block_table (t : Fin cfg5.N) (i : S800000x64.Idx) :
    i ∈ ((cfg5.win 3).blk t).view.set ↔ ∀ a : Fin 2, win5_3.index t a * S16000x64.size a ≤ (i a).val ∧ (i a).val < win5_3.index t a * S16000x64.size a + S16000x64.size a := by
  show i ∈ ((View.whole main_v51_0).slice (win5_3.rect t)).set ↔ _
  rw [View.set_slice_whole, Rect.mem_set_unit]
  exact Iff.rfl

/-- The same for the new sum. -/
theorem mem_block_sum (t : Fin cfg5.N) (i : S800000x64.Idx) :
    i ∈ ((cfg5.win 4).blk t).view.set ↔ ∀ a : Fin 2, win5_4.index t a * S16000x64.size a ≤ (i a).val ∧ (i a).val < win5_4.index t a * S16000x64.size a + S16000x64.size a := by
  show i ∈ ((View.whole main_v51_1).slice (win5_4.rect t)).set ↔ _
  rw [View.set_slice_whole, Rect.mem_set_unit]
  exact Iff.rfl

/-- Row `v` lies in the block of point `v / 16000`: the fifty blocks tile the new table. -/
theorem covered_table (i : S800000x64.Idx) : ∃ t : Fin cfg5.N, (cfg5.win 3).flush t = true ∧ i ∈ ((cfg5.win 3).blk t).view.set := by
  have hi0 : (i 0).val < 800000 := (i 0).isLt
  have hi1 : (i 1).val < 64 := (i 1).isLt
  have hN : cfg5.N = 50 := N_5
  refine ⟨⟨(i 0).val / 16000, by rw [hN]; omega⟩, flush5_3 _, ?_⟩
  rw [mem_block_table]
  obtain ⟨-, -, -, -, -, -, e6, e7, -, -⟩ := block_index ⟨(i 0).val / 16000, by rw [hN]; omega⟩
  intro a
  match a with
  | ⟨0, _⟩ => show win5_3.index _ (0 : Fin 2) * 16000 ≤ (i 0).val ∧ (i 0).val < win5_3.index _ (0 : Fin 2) * 16000 + 16000; rw [e6]; show (i 0).val / 16000 * 16000 ≤ (i 0).val ∧ (i 0).val < (i 0).val / 16000 * 16000 + 16000; omega
  | ⟨1, _⟩ => show win5_3.index _ (1 : Fin 2) * 64 ≤ (i 1).val ∧ (i 1).val < win5_3.index _ (1 : Fin 2) * 64 + 64; rw [e7]; omega

/-- And they tile the new sum. -/
theorem covered_sum (i : S800000x64.Idx) : ∃ t : Fin cfg5.N, (cfg5.win 4).flush t = true ∧ i ∈ ((cfg5.win 4).blk t).view.set := by
  have hi0 : (i 0).val < 800000 := (i 0).isLt
  have hi1 : (i 1).val < 64 := (i 1).isLt
  have hN : cfg5.N = 50 := N_5
  refine ⟨⟨(i 0).val / 16000, by rw [hN]; omega⟩, flush5_4 _, ?_⟩
  rw [mem_block_sum]
  obtain ⟨-, -, -, -, -, -, -, -, e8, e9⟩ := block_index ⟨(i 0).val / 16000, by rw [hN]; omega⟩
  intro a
  match a with
  | ⟨0, _⟩ => show win5_4.index _ (0 : Fin 2) * 16000 ≤ (i 0).val ∧ (i 0).val < win5_4.index _ (0 : Fin 2) * 16000 + 16000; rw [e8]; show (i 0).val / 16000 * 16000 ≤ (i 0).val ∧ (i 0).val < (i 0).val / 16000 * 16000 + 16000; omega
  | ⟨1, _⟩ => show win5_4.index _ (1 : Fin 2) * 64 ≤ (i 1).val ∧ (i 1).val < win5_4.index _ (1 : Fin 2) * 64 + 64; rw [e9]; omega

/-- The new table when the region is left: the aggregate, row `v` scaled by the column's entry `(v, 0)`. -/
theorem table_eq (c : Dev nD) :
    (dat5 V c).arrAt 3 cfg5.N = Cert.Propagation.colScale (V c main_v50) (V c main_v14) :=
  (dat5 V c).arrAt_eq_of_cover 3 _ (fun t _ => flushed_table V c t) covered_table

/-- The new sum when the region is left: the old sum plus the new table. -/
theorem sum_eq (c : Dev nD) :
    (dat5 V c).arrAt 4 cfg5.N = addf (V c main_v39_1) (Cert.Propagation.colScale (V c main_v50) (V c main_v14)) :=
  (dat5 V c).arrAt_eq_of_cover 4 _ (fun t _ => flushed_sum V c t) covered_sum

end Cert.KernelIdeal.ScaleAcc5

end
-- ==== Proof.Quarter6.lean ====
/-
  Region 6 (the kernel that scales by the constant one quarter, over twenty blocks of 40000 rows): what its output
  array holds when the region is left. Block `t` of the output is block `t` of the accumulated table times `0.25`;
  the blocks are rows `40000 t … 40000 t + 39999` and tile the output, so the output is the accumulated table with
  every entry multiplied by one quarter.
-/
import proofs.«423855_j86131274154844_1_alg».proof.Proof.Gen.KernelIdeal.Frame
import proofs.«423855_j86131274154844_1_alg».proof.Proof.Spec
import Idealize.ShloMosaic.Lib.Pipeline.Value
import Idealize.ShloMosaic.Lib.ValueIdx
import Idealize.ShloMosaic.Lib.Tactic

set_option maxRecDepth 16384

noncomputable section

namespace Cert.KernelIdeal.Quarter6

open Idealize.ShloMosaic Idealize.ShloMosaic.TcCoe Idealize.ShloMosaic.ValueIdx Idealize.SL.Sem
open Idealize.ShloMosaic.Pipeline (Dat)
open Cert.KernelIdeal Cert.KernelIdeal.Gen

variable {F : FTy → Type} [FloatOps F]
variable (V : (c : Dev nD) → (b : Ref sig .tc) → Buf (Elt F) ((c : Thread nD τ).loc b))

theorem origin : (![0, 0] : Fin 2 → Nat) = fun _ => 0 := funext fun a => by fin_cases a <;> rfl

/-- The body's product at an entry of the block: the entry times the constant. -/
theorem product_apply (x0 : Vec F S40000x64 .f32) (j : S40000x64.Idx) :
    k6_pay1 x0 j = FloatOps.mulf (x0 j) (FloatOps.ofBits .f32 0x3E800000#32) := by
  unfold k6_pay1
  show FloatOps.mulf (shapeCast S40000x64 x0 _ j) (FloatOps.ofBits .f32 0x3E800000#32) = _
  rw [shapeCast_self]

/-- The two windows move together: at point `t` each is at block row `t`, block column 0. -/
theorem block_index : ∀ t : Fin cfg6.N, win6_0.index t (0 : Fin 2) = t.val ∧ win6_0.index t (1 : Fin 2) = 0
    ∧ win6_1.index t (0 : Fin 2) = t.val ∧ win6_1.index t (1 : Fin 2) = 0 :=
  (by decide +kernel : ∀ t : Fin grid6.N, _)

/-- What point `t` writes back is block `t` of the table scaled by one quarter. -/
theorem flushed_eq (c : Dev nD) (t : Fin cfg6.N) :
    (dat6 V c).flushed 1 t = ((cfg6.win 1).blk t).view.read (Elt F) (Cert.Propagation.quarter (V c main_v51_1)) := by
  show (cfg6.win 1).cut (grid6.coords t) ((dat6 V c).after 1 t) = _
  rw [after6_1]
  unfold out6_1
  rw [View.canon_unit_zero origin]
  simp only [View.ld_unit_zero (S := S40000x64) origin]
  obtain ⟨e0, e1, e2, e3⟩ := block_index t
  funext j
  refine (product_apply (F := F) (iblk6 V c 0 t) j).trans ?_
  show FloatOps.mulf (V c main_v51_1 (((cfg6.win 0).blk t).view.emb j)) (FloatOps.ofBits .f32 0x3E800000#32)
    = FloatOps.mulf (V c main_v51_1 (((cfg6.win 1).blk t).view.emb j)) (FloatOps.ofBits .f32 0x3E800000#32)
  have h0 : ((cfg6.win 0).blk t).view.emb j = ((cfg6.win 1).blk t).view.emb j := by
    funext a; apply Fin.ext
    match a with
    | ⟨0, _⟩ => show win6_0.index t (0 : Fin 2) * 40000 + 1 * (j 0).val = win6_1.index t (0 : Fin 2) * 40000 + 1 * (j 0).val; omega
    | ⟨1, _⟩ => show win6_0.index t (1 : Fin 2) * 64 + 1 * (j 1).val = win6_1.index t (1 : Fin 2) * 64 + 1 * (j 1).val; omega
  rw [h0]

/-- An index of the output lies in point `t`'s block iff each coordinate lies in the block's range on its axis. -/
theorem mem_block (t : Fin cfg6.N) (i : S800000x64.Idx) :
    i ∈ ((cfg6.win 1).blk t).view.set ↔ ∀ a : Fin 2, win6_1.index t a * S40000x64.size a ≤ (i a).val ∧ (i a).val < win6_1.index t a * S40000x64.size a + S40000x64.size a := by
  show i ∈ ((View.whole main_v52).slice (win6_1.rect t)).set ↔ _
  rw [View.set_slice_whole, Rect.mem_set_unit]
  exact Iff.rfl

/-- Row `v` lies in the block of point `v / 40000`: the twenty blocks tile the output. -/
theorem covered (i : S800000x64.Idx) : ∃ t : Fin cfg6.N, (cfg6.win 1).flush t = true ∧ i ∈ ((cfg6.win 1).blk t).view.set := by
  have hi0 : (i 0).val < 800000 := (i 0).isLt
  have hi1 : (i 1).val < 64 := (i 1).isLt
  have hN : cfg6.N = 20 := N_6
  refine ⟨⟨(i 0).val / 40000, by rw [hN]; omega⟩, flush6_1 _, ?_⟩
  rw [mem_block]
  obtain ⟨-, -, e2, e3⟩ := block_index ⟨(i 0).val / 40000, by rw [hN]; omega⟩
  intro a
  match a with
  | ⟨0, _⟩ => show win6_1.index _ (0 : Fin 2) * 40000 ≤ (i 0).val ∧ (i 0).val < win6_1.index _ (0 : Fin 2) * 40000 + 40000; rw [e2]; show (i 0).val / 40000 * 40000 ≤ (i 0).val ∧ (i 0).val < (i 0).val / 40000 * 40000 + 40000; omega
  | ⟨1, _⟩ => show win6_1.index _ (1 : Fin 2) * 64 ≤ (i 1).val ∧ (i 1).val < win6_1.index _ (1 : Fin 2) * 64 + 64; rw [e3]; omega

/-- The output array when the region is left: the accumulated table, every entry times one quarter. -/
theorem out_eq (c : Dev nD) : (dat6 V c).arrAt 1 cfg6.N = Cert.Propagation.quarter (V c main_v51_1) :=
  (dat6 V c).arrAt_eq_of_cover 1 _ (fun t _ => flushed_eq V c t) covered

end Cert.KernelIdeal.Quarter6

end
-- ==== Proof.KernelValue.lean ====
/-
  What the idealized kernel's two result buffers hold at the end of its run, as the specification's operations
  of the four argument arrays. The run's buffer contents are followed boundary by boundary: the host operations
  before the first kernel leave the stacked table `h₀` and the two normalisers as columns; each row-scaling kernel
  leaves `ns ⊙ h`; each gather and scatter-add leaves the aggregate; each scale-and-accumulate kernel leaves the next
  layer's table `A h` and the running sum; the last kernel leaves the sum times one quarter; the final cuts leave its
  user rows and its item rows. A buffer that a segment does not write keeps what it held (an input window of a
  kernel is never written back; any other buffer is outside the kernel's arrays).
-/
import proofs.«423855_j86131274154844_1_alg».proof.Proof.Gen.KernelIdeal.Frame
import proofs.«423855_j86131274154844_1_alg».proof.Proof.Spec
import proofs.«423855_j86131274154844_1_alg».proof.Proof.HostStretches
import proofs.«423855_j86131274154844_1_alg».proof.Proof.Scale0
import proofs.«423855_j86131274154844_1_alg».proof.Proof.Scale2
import proofs.«423855_j86131274154844_1_alg».proof.Proof.Scale4
import proofs.«423855_j86131274154844_1_alg».proof.Proof.ScaleAcc1
import proofs.«423855_j86131274154844_1_alg».proof.Proof.ScaleAcc3
import proofs.«423855_j86131274154844_1_alg».proof.Proof.ScaleAcc5
import proofs.«423855_j86131274154844_1_alg».proof.Proof.Quarter6

set_option maxRecDepth 16384

noncomputable section

namespace Cert.KernelIdeal.Chain

open Idealize.ShloMosaic Idealize.ShloMosaic.TcCoe Idealize.SL.Sem Idealize.ShloMosaic.StableHlo
open Idealize.ShloMosaic.Pipeline (Dat)
open Cert.KernelIdeal Cert.KernelIdeal.Gen
open Cert.Propagation

variable {F : FTy → Type} [FloatOps F]
variable (m : (ℓ : Loc nD τ sig) → Buf (Elt F) ℓ) (ρ : Dev nD → PrngReg)

/-! ## The argument arrays and the specification's tables on core `c` -/

abbrev usersIn (c : Dev nD) : FVec F Cert.ReferenceIdeal.S500000x64 .f32 := m ((c : Thread nD τ).loc main_arg0)
abbrev itemsIn (c : Dev nD) : FVec F Cert.ReferenceIdeal.S300000x64 .f32 := m ((c : Thread nD τ).loc main_arg1)
abbrev srcIn (c : Dev nD) : IVec Cert.ReferenceIdeal.S1250000 32 := m ((c : Thread nD τ).loc main_arg2)
abbrev dstIn (c : Dev nD) : IVec Cert.ReferenceIdeal.S1250000 32 := m ((c : Thread nD τ).loc main_arg3)

abbrev T (c : Dev nD) : FVec F Cert.ReferenceIdeal.S800000x64 .f32 := table (usersIn m c) (itemsIn m c)
abbrev NS (c : Dev nD) : FVec F Cert.ReferenceIdeal.S800000 .f32 := invSqrtDeg (srcIn m c)
abbrev ND (c : Dev nD) : FVec F Cert.ReferenceIdeal.S800000 .f32 := invSqrtDeg (dstIn m c)
abbrev H1 (c : Dev nD) : FVec F Cert.ReferenceIdeal.S800000x64 .f32 := h1 (usersIn m c) (itemsIn m c) (srcIn m c) (dstIn m c)
abbrev H2 (c : Dev nD) : FVec F Cert.ReferenceIdeal.S800000x64 .f32 := h2 (usersIn m c) (itemsIn m c) (srcIn m c) (dstIn m c)
abbrev H3 (c : Dev nD) : FVec F Cert.ReferenceIdeal.S800000x64 .f32 := h3 (usersIn m c) (itemsIn m c) (srcIn m c) (dstIn m c)
/-- A normaliser as the column the kernels read. -/
abbrev col (nrm : FVec F Cert.ReferenceIdeal.S800000 .f32) : FVec F Cert.ReferenceIdeal.S800000x1 .f32 :=
  shapeCast S800000x1 nrm shapeCasts_S800000_S800000x1

/-! ## Before the first kernel -/

theorem at5_table (c : Dev nD) : W5 m ρ c (Proc.devRef .tc main_v15) = T m c := Host.prologue_table (W0 m ρ c)
theorem at5_src (c : Dev nD) : W5 m ρ c (Proc.devRef .tc main_v11) = col (NS m c) := Host.prologue_src (W0 m ρ c)
theorem at5_dst (c : Dev nD) : W5 m ρ c (Proc.devRef .tc main_v14) = col (ND m c) := Host.prologue_dst (W0 m ρ c)
theorem at5_arg2 (c : Dev nD) : W5 m ρ c (Proc.devRef .tc main_arg2) = srcIn m c := Host.prologue_arg2 (W0 m ρ c)
theorem at5_arg3 (c : Dev nD) : W5 m ρ c (Proc.devRef .tc main_arg3) = dstIn m c := Host.prologue_arg3 (W0 m ρ c)

/-! ## After the first row scaling -/

theorem at6_scaled (c : Dev nD) : W6 m ρ c (Proc.devRef .tc main_v16) = rowScale (T m c) (NS m c) := by
  rw [show W6 m ρ c (Proc.devRef .tc main_v16) = (dat0 (V5 m ρ) c).arrAt 2 cfg0.N from W6_arr m ρ c 2, Scale0.out_eq]
  show colScale (W5 m ρ c (Proc.devRef .tc main_v15)) (W5 m ρ c (Proc.devRef .tc main_v11)) = _
  rw [at5_table, at5_src, colScale_reshape]
theorem at6_table (c : Dev nD) : W6 m ρ c (Proc.devRef .tc main_v15) = T m c :=
  ((W6_arr m ρ c 0).trans (((dat0 (V5 m ρ) c).arrAt_in 0 rfl _).trans (A_eq0 (V5 m ρ) c 0))).trans (at5_table m ρ c)
theorem at6_src (c : Dev nD) : W6 m ρ c (Proc.devRef .tc main_v11) = col (NS m c) :=
  ((W6_arr m ρ c 1).trans (((dat0 (V5 m ρ) c).arrAt_in 1 rfl _).trans (A_eq0 (V5 m ρ) c 1))).trans (at5_src m ρ c)
theorem at6_dst (c : Dev nD) : W6 m ρ c (Proc.devRef .tc main_v14) = col (ND m c) :=
  (W6_of_ne m ρ c main_v14 (by decide)).trans (at5_dst m ρ c)
theorem at6_arg2 (c : Dev nD) : W6 m ρ c (Proc.devRef .tc main_arg2) = srcIn m c :=
  (W6_of_ne m ρ c main_arg2 (by decide)).trans (at5_arg2 m ρ c)
theorem at6_arg3 (c : Dev nD) : W6 m ρ c (Proc.devRef .tc main_arg3) = dstIn m c :=
  (W6_of_ne m ρ c main_arg3 (by decide)).trans (at5_arg3 m ρ c)

/-! ## After the first gather and scatter-add -/

theorem at7_agg (c : Dev nD) : W7 m ρ c (Proc.devRef .tc main_v26)
    = aggregate (rowScale (T m c) (NS m c)) (srcIn m c) (dstIn m c) := by
  show after hostOps1 (W6 m ρ c) _ = _
  rw [Host.aggregate1, at6_scaled, at6_arg2, at6_arg3]
theorem at7_table (c : Dev nD) : W7 m ρ c (Proc.devRef .tc main_v15) = T m c := (Host.keeps1_v15 (W6 m ρ c)).trans (at6_table m ρ c)
theorem at7_src (c : Dev nD) : W7 m ρ c (Proc.devRef .tc main_v11) = col (NS m c) := (Host.keeps1_v11 (W6 m ρ c)).trans (at6_src m ρ c)
theorem at7_dst (c : Dev nD) : W7 m ρ c (Proc.devRef .tc main_v14) = col (ND m c) := (Host.keeps1_v14 (W6 m ρ c)).trans (at6_dst m ρ c)
theorem at7_arg2 (c : Dev nD) : W7 m ρ c (Proc.devRef .tc main_arg2) = srcIn m c := (Host.keeps1_arg2 (W6 m ρ c)).trans (at6_arg2 m ρ c)
theorem at7_arg3 (c : Dev nD) : W7 m ρ c (Proc.devRef .tc main_arg3) = dstIn m c := (Host.keeps1_arg3 (W6 m ρ c)).trans (at6_arg3 m ρ c)

/-! ## After the first scale-and-accumulate -/

theorem at8_layer (c : Dev nD) : W8 m ρ c (Proc.devRef .tc main_v27_0) = H1 m c := by
  rw [show W8 m ρ c (Proc.devRef .tc main_v27_0) = (dat1 (V7 m ρ) c).arrAt 3 cfg1.N from W8_arr m ρ c 3, ScaleAcc1.table_eq]
  show colScale (W7 m ρ c (Proc.devRef .tc main_v26)) (W7 m ρ c (Proc.devRef .tc main_v14)) = _
  rw [at7_agg, at7_dst, colScale_reshape]
  rfl
theorem at8_sum (c : Dev nD) : W8 m ρ c (Proc.devRef .tc main_v27_1) = addf (T m c) (H1 m c) := by
  rw [show W8 m ρ c (Proc.devRef .tc main_v27_1) = (dat1 (V7 m ρ) c).arrAt 4 cfg1.N from W8_arr m ρ c 4, ScaleAcc1.sum_eq]
  show addf (W7 m ρ c (Proc.devRef .tc main_v15)) (colScale (W7 m ρ c (Proc.devRef .tc main_v26)) (W7 m ρ c (Proc.devRef .tc main_v14))) = _
  rw [at7_table, at7_agg, at7_dst, colScale_reshape]
  rfl
theorem at8_src (c : Dev nD) : W8 m ρ c (Proc.devRef .tc main_v11) = col (NS m c) :=
  (W8_of_ne m ρ c main_v11 (by decide)).trans (at7_src m ρ c)
theorem at8_dst (c : Dev nD) : W8 m ρ c (Proc.devRef .tc main_v14) = col (ND m c) :=
  ((W8_arr m ρ c 1).trans (((dat1 (V7 m ρ) c).arrAt_in 1 rfl _).trans (A_eq1 (V7 m ρ) c 1))).trans (at7_dst m ρ c)
theorem at8_arg2 (c : Dev nD) : W8 m ρ c (Proc.devRef .tc main_arg2) = srcIn m c :=
  (W8_of_ne m ρ c main_arg2 (by decide)).trans (at7_arg2 m ρ c)
theorem at8_arg3 (c : Dev nD) : W8 m ρ c (Proc.devRef .tc main_arg3) = dstIn m c :=
  (W8_of_ne m ρ c main_arg3 (by decide)).trans (at7_arg3 m ρ c)

/-! ## After the second row scaling -/

theorem at9_scaled (c : Dev nD) : W9 m ρ c (Proc.devRef .tc main_v28) = rowScale (H1 m c) (NS m c) := by
  rw [show W9 m ρ c (Proc.devRef .tc main_v28) = (dat2 (V8 m ρ) c).arrAt 2 cfg2.N from W9_arr m ρ c 2, Scale2.out_eq]
  show colScale (W8 m ρ c (Proc.devRef .tc main_v27_0)) (W8 m ρ c (Proc.devRef .tc main_v11)) = _
  rw [at8_layer, at8_src, colScale_reshape]
theorem at9_sum (c : Dev nD) : W9 m ρ c (Proc.devRef .tc main_v27_1) = addf (T m c) (H1 m c) :=
  (W9_of_ne m ρ c main_v27_1 (by decide)).trans (at8_sum m ρ c)
theorem at9_src (c : Dev nD) : W9 m ρ c (Proc.devRef .tc main_v11) = col (NS m c) :=
  ((W9_arr m ρ c 1).trans (((dat2 (V8 m ρ) c).arrAt_in 1 rfl _).trans (A_eq2 (V8 m ρ) c 1))).trans (at8_src m ρ c)
theorem at9_dst (c : Dev nD) : W9 m ρ c (Proc.devRef .tc main_v14) = col (ND m c) :=
  (W9_of_ne m ρ c main_v14 (by decide)).trans (at8_dst m ρ c)
theorem at9_arg2 (c : Dev nD) : W9 m ρ c (Proc.devRef .tc main_arg2) = srcIn m c :=
  (W9_of_ne m ρ c main_arg2 (by decide)).trans (at8_arg2 m ρ c)
theorem at9_arg3 (c : Dev nD) : W9 m ρ c (Proc.devRef .tc main_arg3) = dstIn m c :=
  (W9_of_ne m ρ c main_arg3 (by decide)).trans (at8_arg3 m ρ c)

/-! ## After the second gather and scatter-add -/

theorem at10_agg (c : Dev nD) : W10 m ρ c (Proc.devRef .tc main_v38)
    = aggregate (rowScale (H1 m c) (NS m c)) (srcIn m c) (dstIn m c) := by
  show after hostOps3 (W9 m ρ c) _ = _
  rw [Host.aggregate3, at9_scaled, at9_arg2, at9_arg3]
theorem at10_sum (c : Dev nD) : W10 m ρ c (Proc.devRef .tc main_v27_1) = addf (T m c) (H1 m c) := (Host.keeps3_v27_1 (W9 m ρ c)).trans (at9_sum m ρ c)
theorem at10_src (c : Dev nD) : W10 m ρ c (Proc.devRef .tc main_v11) = col (NS m c) := (Host.keeps3_v11 (W9 m ρ c)).trans (at9_src m ρ c)
theorem at10_dst (c : Dev nD) : W10 m ρ c (Proc.devRef .tc main_v14) = col (ND m c) := (Host.keeps3_v14 (W9 m ρ c)).trans (at9_dst m ρ c)
theorem at10_arg2 (c : Dev nD) : W10 m ρ c (Proc.devRef .tc main_arg2) = srcIn m c := (Host.keeps3_arg2 (W9 m ρ c)).trans (at9_arg2 m ρ c)
theorem at10_arg3 (c : Dev nD) : W10 m ρ c (Proc.devRef .tc main_arg3) = dstIn m c := (Host.keeps3_arg3 (W9 m ρ c)).trans (at9_arg3 m ρ c)

/-! ## After the second scale-and-accumulate -/

theorem at11_layer (c : Dev nD) : W11 m ρ c (Proc.devRef .tc main_v39_0) = H2 m c := by
  rw [show W11 m ρ c (Proc.devRef .tc main_v39_0) = (dat3 (V10 m ρ) c).arrAt 3 cfg3.N from W11_arr m ρ c 3, ScaleAcc3.table_eq]
  show colScale (W10 m ρ c (Proc.devRef .tc main_v38)) (W10 m ρ c (Proc.devRef .tc main_v14)) = _
  rw [at10_agg, at10_dst, colScale_reshape]
  rfl
theorem at11_sum (c : Dev nD) : W11 m ρ c (Proc.devRef .tc main_v39_1) = addf (addf (T m c) (H1 m c)) (H2 m c) := by
  rw [show W11 m ρ c (Proc.devRef .tc main_v39_1) = (dat3 (V10 m ρ) c).arrAt 4 cfg3.N from W11_arr m ρ c 4, ScaleAcc3.sum_eq]
  show addf (W10 m ρ c (Proc.devRef .tc main_v27_1)) (colScale (W10 m ρ c (Proc.devRef .tc main_v38)) (W10 m ρ c (Proc.devRef .tc main_v14))) = _
  rw [at10_sum, at10_agg, at10_dst, colScale_reshape]
  rfl
theorem at11_src (c : Dev nD) : W11 m ρ c (Proc.devRef .tc main_v11) = col (NS m c) :=
  (W11_of_ne m ρ c main_v11 (by decide)).trans (at10_src m ρ c)
theorem at11_dst (c : Dev nD) : W11 m ρ c (Proc.devRef .tc main_v14) = col (ND m c) :=
  ((W11_arr m ρ c 1).trans (((dat3 (V10 m ρ) c).arrAt_in 1 rfl _).trans (A_eq3 (V10 m ρ) c 1))).trans (at10_dst m ρ c)
theorem at11_arg2 (c : Dev nD) : W11 m ρ c (Proc.devRef .tc main_arg2) = srcIn m c :=
  (W11_of_ne m ρ c main_arg2 (by decide)).trans (at10_arg2 m ρ c)
theorem at11_arg3 (c : Dev nD) : W11 m ρ c (Proc.devRef .tc main_arg3) = dstIn m c :=
  (W11_of_ne m ρ c main_arg3 (by decide)).trans (at10_arg3 m ρ c)

/-! ## After the third row scaling -/

theorem at12_scaled (c : Dev nD) : W12 m ρ c (Proc.devRef .tc main_v40) = rowScale (H2 m c) (NS m c) := by
  rw [show W12 m ρ c (Proc.devRef .tc main_v40) = (dat4 (V11 m ρ) c).arrAt 2 cfg4.N from W12_arr m ρ c 2, Scale4.out_eq]
  show colScale (W11 m ρ c (Proc.devRef .tc main_v39_0)) (W11 m ρ c (Proc.devRef .tc main_v11)) = _
  rw [at11_layer, at11_src, colScale_reshape]
theorem at12_sum (c : Dev nD) : W12 m ρ c (Proc.devRef .tc main_v39_1) = addf (addf (T m c) (H1 m c)) (H2 m c) :=
  (W12_of_ne m ρ c main_v39_1 (by decide)).trans (at11_sum m ρ c)
theorem at12_dst (c : Dev nD) : W12 m ρ c (Proc.devRef .tc main_v14) = col (ND m c) :=
  (W12_of_ne m ρ c main_v14 (by decide)).trans (at11_dst m ρ c)
theorem at12_arg2 (c : Dev nD) : W12 m ρ c (Proc.devRef .tc main_arg2) = srcIn m c :=
  (W12_of_ne m ρ c main_arg2 (by decide)).trans (at11_arg2 m ρ c)
theorem at12_arg3 (c : Dev nD) : W12 m ρ c (Proc.devRef .tc main_arg3) = dstIn m c :=
  (W12_of_ne m ρ c main_arg3 (by decide)).trans (at11_arg3 m ρ c)

/-! ## After the third gather and scatter-add -/

theorem at13_agg (c : Dev nD) : W13 m ρ c (Proc.devRef .tc main_v50)
    = aggregate (rowScale (H2 m c) (NS m c)) (srcIn m c) (dstIn m c) := by
  show after hostOps5 (W12 m ρ c) _ = _
  rw [Host.aggregate5, at12_scaled, at12_arg2, at12_arg3]
theorem at13_sum (c : Dev nD) : W13 m ρ c (Proc.devRef .tc main_v39_1) = addf (addf (T m c) (H1 m c)) (H2 m c) := (Host.keeps5_v39_1 (W12 m ρ c)).trans (at12_sum m ρ c)
theorem at13_dst (c : Dev nD) : W13 m ρ c (Proc.devRef .tc main_v14) = col (ND m c) := (Host.keeps5_v14 (W12 m ρ c)).trans (at12_dst m ρ c)

/-! ## After the third scale-and-accumulate, the quarter, and the cuts -/

theorem at14_total (c : Dev nD) : W14 m ρ c (Proc.devRef .tc main_v51_1)
    = total (usersIn m c) (itemsIn m c) (srcIn m c) (dstIn m c) := by
  rw [show W14 m ρ c (Proc.devRef .tc main_v51_1) = (dat5 (V13 m ρ) c).arrAt 4 cfg5.N from W14_arr m ρ c 4, ScaleAcc5.sum_eq]
  show addf (W13 m ρ c (Proc.devRef .tc main_v39_1)) (colScale (W13 m ρ c (Proc.devRef .tc main_v50)) (W13 m ρ c (Proc.devRef .tc main_v14))) = _
  rw [at13_sum, at13_agg, at13_dst, colScale_reshape]
  rfl

theorem at15_mean (c : Dev nD) : W15 m ρ c (Proc.devRef .tc main_v52)
    = quarter (total (usersIn m c) (itemsIn m c) (srcIn m c) (dstIn m c)) := by
  rw [show W15 m ρ c (Proc.devRef .tc main_v52) = (dat6 (V14 m ρ) c).arrAt 1 cfg6.N from W15_arr m ρ c 1, Quarter6.out_eq]
  show quarter (W14 m ρ c (Proc.devRef .tc main_v51_1)) = _
  rw [at14_total]

/-- The first result: the user rows of the sum times one quarter. -/
theorem users_eq (c : Dev nD) : W16 m ρ c (Proc.devRef .tc main_v53)
    = extractStridedSlice (α := F .f32) Cert.ReferenceIdeal.S500000x64 ![0, 0]
        (quarter (total (usersIn m c) (itemsIn m c) (srcIn m c) (dstIn m c))) Cert.ReferenceIdeal.Gen.slices_S800000x64_S500000x64_0_0 := by
  show after hostOps7 (W15 m ρ c) _ = _
  rw [Host.cut_users, at15_mean]

/-- The second result: its item rows. -/
theorem items_eq (c : Dev nD) : W16 m ρ c (Proc.devRef .tc main_v54)
    = extractStridedSlice (α := F .f32) Cert.ReferenceIdeal.S300000x64 ![500000, 0]
        (quarter (total (usersIn m c) (itemsIn m c) (srcIn m c) (dstIn m c))) Cert.ReferenceIdeal.Gen.slices_S800000x64_S300000x64_500000_0 := by
  show after hostOps7 (W15 m ρ c) _ = _
  rw [Host.cut_items, at15_mean]

end Cert.KernelIdeal.Chain

end
-- ==== Proof.RefValue.lean ====
/-
  The reference's two results are the specification's user rows and item rows of the mean: its run's composed terms,
  folded back into the named steps (the normalisers, the stacked table, a layer as row scaling, gather and scatter-add,
  row scaling, the sum of the four tables, the quotient by four, the two cuts).
-/
import proofs.«423855_j86131274154844_1_alg».proof.Proof.Gen.ReferenceIdeal.Run
import proofs.«423855_j86131274154844_1_alg».proof.Proof.Spec

set_option maxRecDepth 16384

noncomputable section

namespace Cert.ReferenceIdeal.Folded

open Idealize.ShloMosaic Idealize.ShloMosaic.TcCoe Idealize.SL.Sem
open Cert.ReferenceIdeal Cert.ReferenceIdeal.Gen Cert.ReferenceIdeal.Value
open Cert.Propagation

variable {F : FTy → Type} [FloatOps F]
variable (m : (ℓ : Loc nD τ sig) → Buf (Elt F) ℓ)

/-- The first result is the user rows of the mean. -/
theorem users_eq (c : Dev nD) : res_main_v67 m c
    = users (F := F) (m ((c.tc : Thread nD τ).loc main_arg0)) (m ((c.tc : Thread nD τ).loc main_arg1))
        (m ((c.tc : Thread nD τ).loc main_arg2)) (m ((c.tc : Thread nD τ).loc main_arg3)) := by
  unfold res_main_v67
  rfl

/-- The second result is its item rows. -/
theorem items_eq (c : Dev nD) : res_main_v68 m c
    = items (F := F) (m ((c.tc : Thread nD τ).loc main_arg0)) (m ((c.tc : Thread nD τ).loc main_arg1))
        (m ((c.tc : Thread nD τ).loc main_arg2)) (m ((c.tc : Thread nD τ).loc main_arg3)) := by
  unfold res_main_v68
  rfl

end Cert.ReferenceIdeal.Folded

end
-- ==== Proof.lean ====
/-
  LightGCN propagation: three layers of normalised neighbourhood aggregation over a bipartite graph of 800000 nodes
  and 1250000 edges, and the mean of the four tables. Both programs compute, over the extended reals,

      (h₀ + A h₀ + A² h₀ + A³ h₀) / 4,      A h = nd ⊙ scatter_dst (gather_src (ns ⊙ h)),

  with `ns`, `nd` the inverse square roots of the clamped out- and in-degrees and `h₀` the user rows stacked over the
  item rows. The reference does every step as a host operation. The kernel keeps the degree counts, the gathers and
  the scatter-adds as the same host operations on the same operands, and does the three kinds of elementwise step in
  tiled kernels: the row scaling by `ns` (twenty blocks of 40000 rows), the row scaling by `nd` fused with the running
  sum (fifty blocks of 16000 rows), and the final scaling by the constant one quarter. Each kernel's blocks tile its
  output, so each leaves exactly the whole-array step; the normaliser reaches the kernels as a column `[n, 1]` where the
  reference broadcasts a vector, the same entry either way; and a product with `0.25` is a quotient by `4` on every
  extended real, infinite ones included. No property of the inputs is used: the two sides apply the same operations
  in the same order.
  The three frames are the generated ones (the reference's is its generated run with the results dropped); the
  idealization changed no operation, so there is nothing to preserve.
-/
import proofs.«423855_j86131274154844_1_alg».proof.Defs
import proofs.«423855_j86131274154844_1_alg».proof.Proof.Gen.Kernel
import proofs.«423855_j86131274154844_1_alg».proof.Proof.Gen.Kernel.Skeleton
import proofs.«423855_j86131274154844_1_alg».proof.Proof.Gen.Kernel.Launch
import proofs.«423855_j86131274154844_1_alg».proof.Proof.Gen.Kernel.Points
import proofs.«423855_j86131274154844_1_alg».proof.Proof.Gen.Kernel.Frame
import proofs.«423855_j86131274154844_1_alg».proof.Proof.Gen.KernelIdeal
import proofs.«423855_j86131274154844_1_alg».proof.Proof.Gen.KernelIdeal.Skeleton
import proofs.«423855_j86131274154844_1_alg».proof.Proof.Gen.KernelIdeal.Launch
import proofs.«423855_j86131274154844_1_alg».proof.Proof.Gen.KernelIdeal.Points
import proofs.«423855_j86131274154844_1_alg».proof.Proof.Gen.KernelIdeal.Frame
import proofs.«423855_j86131274154844_1_alg».proof.Proof.Gen.ReferenceIdeal
import proofs.«423855_j86131274154844_1_alg».proof.Proof.Gen.Pre_finite_inputs
import proofs.«423855_j86131274154844_1_alg».proof.Proof.Gen.ReferenceIdeal.Run
import proofs.«423855_j86131274154844_1_alg».proof.Proof.Spec
import proofs.«423855_j86131274154844_1_alg».proof.Proof.Mean
import proofs.«423855_j86131274154844_1_alg».proof.Proof.KernelRun
import proofs.«423855_j86131274154844_1_alg».proof.Proof.KernelValue
import proofs.«423855_j86131274154844_1_alg».proof.Proof.RefValue
import Idealize.ShloMosaic.Adequacy
import Idealize.ShloMosaic.Init

noncomputable section

namespace Cert.Proof

open Idealize.ShloMosaic Idealize.ShloMosaic.TcCoe Idealize.SL.Sem
open Cert.Propagation

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2.2) (Cert.ReferenceIdeal.Value.run (F := Ideal) m ρ)

/-- Both programs end with the user rows and the item rows of the mean of the four tables, of the same arguments. -/
theorem algebraic : Cert.algebraic_KernelIdeal_ReferenceIdeal := by
  intro m ρ m' ρ' _ hagree
  refine ⟨fun c => users (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    fun c => items (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun r h c => ?_) (Cert.KernelIdeal.Results.run_results (F := Ideal) m ρ)
    obtain ⟨hu, hi, hargs⟩ := h c
    refine ⟨hu.trans ?_, hi.trans ?_, hargs⟩
    · rw [Cert.KernelIdeal.Chain.users_eq, quarter_eq_div]
      rfl
    · rw [Cert.KernelIdeal.Chain.items_eq, quarter_eq_div]
      rfl
  · refine (θ_run Cert.ReferenceIdeal.defs _ _).mono (fun r h c => ?_) (Cert.ReferenceIdeal.Value.run (F := Ideal) m' ρ')
    obtain ⟨hu, hi, hargs⟩ := h c
    refine ⟨hu.trans ?_, hi.trans ?_, hargs⟩
    · rw [Cert.ReferenceIdeal.Folded.users_eq, (hagree c).1, (hagree c).2.1, (hagree c).2.2.1, (hagree c).2.2.2]
    · rw [Cert.ReferenceIdeal.Folded.items_eq, (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
